-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S16384x1024 : Shape := ⟨2, ![16384, 1024]⟩
abbrev S32768x1024 : Shape := ⟨2, ![32768, 1024]⟩
abbrev S2x2048x1024 : Shape := ⟨3, ![2, 2048, 1024]⟩
abbrev S2 : Shape := ⟨1, ![2]⟩
abbrev S_ : Shape := ⟨0, ![]⟩
abbrev S1 : Shape := ⟨1, ![1]⟩
abbrev S1x2048x1024 : Shape := ⟨3, ![1, 2048, 1024]⟩
abbrev S2048x1024 : Shape := ⟨2, ![2048, 1024]⟩

abbrev nBuf : Space → Nat
  | .hbm => 2
  | .vmem => 1
  | .smem => 0
  | _ => 0

abbrev bufTy : (tb : Table) → Fin (tcTables nBuf tb) → BufTy
  | .hbm, ⟨0, _⟩ => ⟨S16384x1024, .f32⟩
  | .hbm, ⟨1, _⟩ => ⟨S32768x1024, .f32⟩
  | .local _ .vmem, ⟨0, _⟩ => ⟨S2x2048x1024, .f32⟩
  | _, _ => ⟨S16384x1024, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v17 : BitVec 32 := Scalar.muli v8 c16384_i32
  let c0_i32_13 : BitVec 32 := 0#32
  ![v17.toNat, 0]
def k0_dev2 (d0 : Dev nD) : Nat :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v18 : BitVec 32 := Scalar.muli v2 c4_i32_9
  let v19 : BitVec 32 := Scalar.addi c0_i32_10 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v20 : BitVec 32 := Scalar.muli v5 c2_i32_11
  let v21 : BitVec 32 := Scalar.addi v19 v20
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_12 : BitVec 32 := 1#32
  let v22 : BitVec 32 := Scalar.muli v9 c1_i32_12
  let v23 : BitVec 32 := Scalar.addi v21 v22
  v23.toNat
def k0_off2 (d0 : Dev nD) (c0_i32_27 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32_26 : BitVec 32 := 16384#32
  let v35 : BitVec 32 := Scalar.muli v8 c16384_i32_26
  let v36 : BitVec 32 := Scalar.addi v35 c0_i32_27
  let c0_i32_30 : BitVec 32 := 0#32
  ![v36.toNat, 0]

class Facts₀ : Prop where
  hamt_1 : (1#32 : BitVec 32).msb = false
  inb_S2_S1_0 : ∀ a, (![0] : Fin 1 → Nat) a + S1.size a ≤ S2.size a
  squeezes_S1_S_ : S1.Squeezes S_
  inb_S2x2048x1024_S1x2048x1024_0_0_0 : ∀ a, (![0, 0, 0] : Fin 3 → Nat) a + S1x2048x1024.size a ≤ S2x2048x1024.size a
  squeezes_S1x2048x1024_S2048x1024 : S1x2048x1024.Squeezes S2048x1024
  inb_S16384x1024_S2048x1024_0_0 : ∀ a, (![0, 0] : Fin 2 → Nat) a + S2048x1024.size a ≤ S16384x1024.size a
  inb_S2_S1_1 : ∀ a, (![1] : Fin 1 → Nat) a + S1.size a ≤ S2.size a
  inb_S2x2048x1024_S1x2048x1024_1_0_0 : ∀ a, (![1, 0, 0] : Fin 3 → Nat) a + S1x2048x1024.size a ≤ S2x2048x1024.size a
  inb_S16384x1024_S2048x1024_2048_0 : ∀ a, (![2048, 0] : Fin 2 → Nat) a + S2048x1024.size a ≤ S16384x1024.size a
  inb_S16384x1024_S2048x1024_4096_0 : ∀ a, (![4096, 0] : Fin 2 → Nat) a + S2048x1024.size a ≤ S16384x1024.size a
  inb_S16384x1024_S2048x1024_6144_0 : ∀ a, (![6144, 0] : Fin 2 → Nat) a + S2048x1024.size a ≤ S16384x1024.size a
  inb_S16384x1024_S2048x1024_8192_0 : ∀ a, (![8192, 0] : Fin 2 → Nat) a + S2048x1024.size a ≤ S16384x1024.size a
  inb_S16384x1024_S2048x1024_10240_0 : ∀ a, (![10240, 0] : Fin 2 → Nat) a + S2048x1024.size a ≤ S16384x1024.size a
  inb_S16384x1024_S2048x1024_12288_0 : ∀ a, (![12288, 0] : Fin 2 → Nat) a + S2048x1024.size a ≤ S16384x1024.size a
  inb_S16384x1024_S2048x1024_14336_0 : ∀ a, (![14336, 0] : Fin 2 → Nat) a + S2048x1024.size a ≤ S16384x1024.size a
  hcc0_scratch1 : 0 + S2.numel ≤ 6
  hcc0_scratch2 : 2 + S2.numel ≤ 6
  hcc0_scratch3 : 4 + S_.numel ≤ 6
  hcc0_scratch4 : 5 + S_.numel ≤ 6
  k0_dev1_lt : ∀ d0 : Dev nD, (k0_dev1 d0) < nD
  k0_off1_inb : ∀ d0 : Dev nD, ∀ a, (k0_off1 d0) a + S16384x1024.size a ≤ S32768x1024.size a
  k0_dev2_lt : ∀ d0 : Dev nD, (k0_dev2 d0) < nD
  k0_off2_inb : ∀ d0 : Dev nD, ∀ (r : Fin 8), ∀ a, (k0_off2 d0 (BitVec.ofNat 32 (2048 * r.val))) a + S2048x1024.size a ≤ S32768x1024.size a

variable [Facts₀]

abbrev cc0_scratch1 : DmaSems sig S2 := SemArray.consecutive 0 S2 hcc0_scratch1
abbrev cc0_scratch2 : DmaSems sig S2 := SemArray.consecutive 2 S2 hcc0_scratch2
abbrev cc0_scratch3 : DmaSems sig S_ := SemArray.consecutive 4 S_ hcc0_scratch3
abbrev cc0_scratch4 : DmaSems sig S_ := SemArray.consecutive 5 S_ hcc0_scratch4

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelProto.lean ====
/-
  The all-gather along the mesh's z axis: the protocol's vocabulary.

  Device c sits at (c / 4, c / 2 % 2, c % 2); its PEER is the device whose z coordinate is flipped. A device holds one
  half of the rows of the whole array (rows [16384 (c % 2), 16384 (c % 2) + 16384)) and must end holding all of them.
  It tells its peer it has entered (one unit on the peer's barrier cell), waits for the peer's unit, sends its half into
  the peer's result array at the rows that half occupies in the whole array, copies the same half chunk by chunk into its
  own result array at those rows, and waits for everything: its own chunks, its transfer's source read, and the peer's half
  landed.

  Stated here, for every float instance: the peer, the three cells of a device that other devices pay or wait on (barrier,
  send, receive), what each cell's one duty hands its owner (the payloads, with the CONTENTS of each landing), what a
  device owes at entry, the levels, what a device starts from and what it ends with, and the array every device ends
  holding (gathered).
-/
import proofs.«900670_g7700000000000671_dist_ag_v7x_xyz2x2x2_z_m16384_n1024_f32_1_alg».proof.Proof.Gen.Kernel
import proofs.«900670_g7700000000000671_dist_ag_v7x_xyz2x2x2_z_m16384_n1024_f32_1_alg».proof.Proof.Gen.Kernel.Skeleton
import proofs.«900670_g7700000000000671_dist_ag_v7x_xyz2x2x2_z_m16384_n1024_f32_1_alg».proof.Proof.Gen.Kernel.Launch
import proofs.«900670_g7700000000000671_dist_ag_v7x_xyz2x2x2_z_m16384_n1024_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the protocol's (one duty per round, named by Unit), and the exclusive
counters the local copies' invariants take their tokens from -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER embR; infer_instance

variable (m : (ℓ : Loc nD τ sig) → Buf (Elt F) ℓ) (ρ : Dev nD → PrngReg)

/-! ## The peer -/

/-- The device at the same x and y whose z coordinate is the other one. -/
def peer (c : Dev nD) : Dev nD := ⟨(4 * (c.val / 4) + 2 * ((c.val / 2) % 2) + 1) - (c.val % 2), (k0_dev1_eq c) ▸ k0_dev1_lt c⟩

theorem peer_peer (c : Dev nD) : peer (peer c) = c := by revert c; decide
theorem peer_ne (c : Dev nD) : peer c ≠ c := by revert c; decide
/-- The peer holds the other half: its z coordinate is the other one. -/
theorem peer_z (c : Dev nD) : (peer c).val % 2 = 1 - c.val % 2 := by revert c; decide

/-- The kernel's two device chains (the signal's and the transfer's) both name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def flip : Dev nD ≃ Dev nD := ⟨peer, peer, peer_peer, peer_peer⟩

/-! ## The memrefs and the cells -/

/-- A device's half (the argument), the result array, the two-slot staging scratch. -/
abbrev xM : Memref sig .tc .hbm S16384x1024 .f32 := Memref.whole main_arg0
abbrev oM : Memref sig .tc .hbm S32768x1024 .f32 := Memref.whole main_v1
abbrev vM : Memref sig .tc .vmem S2x2048x1024 .f32 := Memref.whole cc0_scratch0

/-- The rows of a result array that device d's half occupies: rows [16384 (d % 2), +16384), as the kernel slices them. -/
abbrev landM (d : Dev nD) : Memref sig .tc .hbm S16384x1024 .f32 :=
  (oM).slice (Rect.unit (s := S32768x1024) (k0_off1 d) S16384x1024.size (k0_off1_inb d)) (fun _ => rfl)

/-- Chunk r (2048 rows) of device d's half inside a result array, as the kernel slices it. -/
abbrev chunkM (d : Dev nD) (r : Fin 8) : Memref sig .tc .hbm S2048x1024 .f32 :=
  (oM).slice (Rect.unit (s := S32768x1024) (k0_off2 d (BitVec.ofNat 32 (2048 * r.val))) S2048x1024.size (k0_off2_inb d r)) (fun _ => rfl)

/-- The runtime's barrier semaphore; the transfer's send and receive semaphores. -/
abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch indexes them: the four of the local chunk copies (in 0, in 1,
    out 0, out 1), then send, then receive. -/
abbrev osem : Fin 6 → SemLoc sig := fun k => .dma ⟨k.val, k.isLt⟩
/-- The protocol's three cells of a device: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)
/-- The local chunk copies' four semaphores. -/
abbrev lsem : Fin 4 → SemLoc sig := fun k => .dma ⟨k.val, Nat.lt_of_lt_of_le k.isLt (by decide)⟩
abbrev lcell (c : Dev nD) (k : Fin 4) : GSem nD τ sig := ((c : Thread nD τ), lsem k)

/-- The transfer's credit: the half's size in the engine's units. -/
abbrev N : ℕ := (xM : Memref sig .tc .hbm S16384x1024 .f32).view.dmaCredit
theorem N_pos : 0 < N := View.dmaCredit_pos _ (by decide)

/-! ## Contents -/

/-- Device c's half and its result array as launched. -/
def x0 (c : Dev nD) : Buf (Elt F) ((c : Thread nD τ).loc main_arg0) := m ((c : Thread nD τ).loc main_arg0)
def o0 (c : Dev nD) : Buf (Elt F) ((c : Thread nD τ).loc main_v1) := m ((c : Thread nD τ).loc main_v1)

/-- Device c's result array once its peer's half has landed at the peer's rows (the rest as launched). -/
def landed (c : Dev nD) : Buf (Elt F) ((c : Thread nD τ).loc main_v1) :=
  (landM (peer c)).view.write (Elt F) (o0 m c) ((xM : Memref sig .tc .hbm S16384x1024 .f32).view.read (Elt F) (x0 m (peer c))) Finset.univ

/-- What every device ends holding: its result array as launched with its own half written at its own rows and the
    peer's half at the peer's rows. -/
def gathered (c : Dev nD) : Buf (Elt F) ((c : Thread nD τ).loc main_v1) :=
  (landM (peer c)).view.write (Elt F)
    ((landM c).view.write (Elt F) (o0 m c) ((xM : Memref sig .tc .hbm S16384x1024 .f32).view.read (Elt F) (x0 m c)) Finset.univ)
    ((xM : Memref sig .tc .hbm S16384x1024 .f32).view.read (Elt F) (x0 m (peer c))) Finset.univ

/-! ## The points-to assertions the protocol moves around -/

/-- Device c's half at share q. -/
def xPts (c : Dev nD) (q : PosShare TreeShare) : sProp 𝕄 :=
  (xM : Memref sig .tc .hbm S16384x1024 .f32).view.loc (c : Thread nD τ) ↦[(xM : Memref sig .tc .hbm S16384x1024 .f32).view.set]{q} x0 m c
/-- The rows of device c's result array where device d's half goes, at contents f. -/
def rowsPts (c d : Dev nD) (f : Buf (Elt F) ((c : Thread nD τ).loc main_v1)) : sProp 𝕄 :=
  (landM d).view.loc (c : Thread nD τ) ↦[(landM d).view.set]{fullShare} f

/-! ## The schedule: one round, one duty per cell -/

/-- What the peer's unit on c's barrier cell hands c: the rows of the PEER's result array where c's half goes, as
    launched, and that the peer has reached round 0 of its receive cell. -/
def barPay (c : Dev nD) : sProp 𝕄 := iprop(rowsPts (peer c) c (o0 m (peer c)) ∗ reached ER (recvCell (peer c)) 0)
/-- What the landing on c's receive cell hands c: the rows of c's result array holding the peer's half. -/
def recvPay (c : Dev nD) : sProp 𝕄 := rowsPts c (peer c) (landed m c)
/-- What c's send cell hands back: the share of its half the transfer read. -/
def sendPay (c : Dev nD) : sProp 𝕄 := xPts m c fullShare.right

abbrev IsProto (g : GSem nD τ sig) : Prop := g.1.2 = .tc ∧ (g.2 = .reg barS ∨ g.2 = .dma sendS.sem ∨ g.2 = .dma recvS.sem)

def sched : Rounds.Schedule (GSem nD τ sig) Unit 𝕄 where
  duties g r := if r = 0 ∧ IsProto g then {()} else ∅
  unitless _ := False
  amount g _ _ := if g.2 = .reg barS then 1 else N
  payload g _ _ :=
    if g.2 = .reg barS then barPay m g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

/-! ## What a device owes at entry; the levels -/

/-- Device c owes the peer's receive cell the half's credit and the peer's barrier cell one unit (the signal, first,
    peels the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (send, the local copies') at 0. -/
def lv (g : GSem nD τ sig) (_ : Unit) : ℕ := if g.2 = .reg barS then 1 else if g.2 = .dma recvS.sem then 2 else 0

/-! ## What a device starts from and ends with -/

/-- The cells' invariants device c's body opens, at the names K the launch allocated them at: its own three, the
    peer's barrier cell (its signal) and the peer's receive cell (its transfer). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The protocol's ghost state device c starts from: the invariants; its positions at round 0 of its three cells; round
    0 reached of the cells it pays and of its own send and receive cells; the three duty tokens it pays with (the
    peer's barrier duty, the peer's receive duty, its own send duty). -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- The local copies' four counters at zero. -/
def localSems (c : Dev nD) : sProp 𝕄 :=
  iprop(semVal (lcell c 0) 0 ∗ semVal (lcell c 1) 0 ∗ semVal (lcell c 2) 0 ∗ semVal (lcell c 3) 0)

/-- What the launch's global step makes for device c. -/
def G' (c : Dev nD) : sProp 𝕄 := iprop((∃ K, ghost m K c) ∗ localSems c)

/-- What device c's body starts from, the scratch apart: the ghost state, the local counters, its two credit tokens (its
    barrier's unit, its receive cell's credit), the levels, and its two arrays as launched. -/
def start (c : Dev nD) : sProp 𝕄 :=
  iprop(G' m c ∗ cred (tallyAt (barCell c) () 1) ∗ cred (tallyAt (recvCell c) () N) ∗ levAts L lv
    ∗ xPts m c fullShare ∗ (((c : Thread nD τ).loc main_v1) ↦{fullShare} o0 m c))

def Φ₀ (c : Dev nD) : sProp 𝕄 := iprop(start m c ∗ ∃ fv : Buf (Elt F) ((c : Thread nD τ).loc cc0_scratch0), ((c : Thread nD τ).loc cc0_scratch0) ↦{fullShare} fv)

/-- After the body: the half unchanged, the result array gathered, the scratch at some contents, the six own counters at
    zero (the send and receive cells closed; the barrier cell is the runtime's: nothing to hand back). -/
def Φ₁ (c : Dev nD) : sProp 𝕄 :=
  iprop(xPts m c fullShare ∗ (((c : Thread nD τ).loc main_v1) ↦{fullShare} gathered m c)
    ∗ (∃ fv : Buf (Elt F) ((c : Thread nD τ).loc cc0_scratch0), ((c : Thread nD τ).loc cc0_scratch0) ↦{fullShare} fv)
    ∗ localSems c ∗ semVal (sendCell c) 0 ∗ semVal (recvCell c) 0)

/-- The pipeline's proof data: no window; one point; the device owes O₀ before it and nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the body starts from, in full, with what it owes recorded against the waits W so far. -/
def bodyPre (K : Dev nD × Fin 3 → ℕ) (c : Dev nD) (W : Waits sig Unit) : sProp 𝕄 :=
  iprop(ghost m K c ∗ localSems c ∗ cred (tallyAt (barCell c) () 1) ∗ cred (tallyAt (recvCell c) () N) ∗ levAts L lv
    ∗ xPts m c fullShare ∗ (((c : Thread nD τ).loc main_v1) ↦{fullShare} o0 m c)
    ∗ (∃ fv : Buf (Elt F) ((c : Thread nD τ).loc cc0_scratch0), ((c : Thread nD τ).loc cc0_scratch0) ↦{fullShare} fv)
    ∗ owes (c : Thread nD τ) (O₀ c) W)

/-- What it ends with: the invariant after the point and nothing owed. -/
def bodyPost (c : Dev nD) : sProp 𝕄 := iprop(Φ₁ m c ∗ ∃ W' : Waits sig Unit, owes (c : Thread nD τ) 0 W')

end Cert.Kernel.Gather

end
-- ==== Proof.KernelTables.lean ====
/-
  The all-gather along z: the schedule read cell by cell, and the levels.

  Each of a device's three protocol cells (barrier, send, receive) has exactly one duty, in round 0: the tables below give,
  with the table entry on the left, its duties, its amount, the round's expected units, its payload, and the payloads of a
  round from which no duty has been taken. The payloads of the PEER's barrier and receive cells are also stated with the
  peer of the peer resolved, as the device that pays them meets them. Then: where a device's entry dues can be positive, and
  that its barrier cell sits below the one due it still has when it waits there.
-/
import proofs.«900670_g7700000000000671_dist_ag_v7x_xyz2x2x2_z_m16384_n1024_f32_1_alg».proof.Proof.KernelProto

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells are distinct -/

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

section Tables

theorem isProto_bar (c : Dev nD) : IsProto (barCell c) := ⟨rfl, .inl rfl⟩
theorem isProto_send (c : Dev nD) : IsProto (sendCell c) := ⟨rfl, .inr (.inl rfl)⟩
theorem isProto_recv (c : Dev nD) : IsProto (recvCell c) := ⟨rfl, .inr (.inr rfl)⟩

/-! ## Duties -/

omit [FloatOps F] in
theorem duties_bar (m : (ℓ : Loc nD τ sig) → Buf (Elt F) ℓ) (c : Dev nD) : (sched (F := F) m).duties (barCell c) 0 = {()} := by dsimp only [sched]; exact if_pos ⟨rfl, isProto_bar c⟩
omit [FloatOps F] in
theorem duties_send (m : (ℓ : Loc nD τ sig) → Buf (Elt F) ℓ) (c : Dev nD) : (sched (F := F) m).duties (sendCell c) 0 = {()} := by dsimp only [sched]; exact if_pos ⟨rfl, isProto_send c⟩
omit [FloatOps F] in
theorem duties_recv (m : (ℓ : Loc nD τ sig) → Buf (Elt F) ℓ) (c : Dev nD) : (sched (F := F) m).duties (recvCell c) 0 = {()} := by dsimp only [sched]; exact if_pos ⟨rfl, isProto_recv c⟩
omit [FloatOps F] in
theorem duties_later (m : (ℓ : Loc nD τ sig) → Buf (Elt F) ℓ) (g : GSem nD τ sig) : ∀ r, 1 ≤ r → (sched (F := F) m).duties g r = ∅ :=
  fun r hr => by dsimp only [sched]; rw [if_neg fun h => by omega]

omit [FloatOps F] in
theorem mem_duties_bar (m : (ℓ : Loc nD τ sig) → Buf (Elt F) ℓ) (c : Dev nD) (d : Unit) : d ∈ (sched (F := F) m).duties (barCell c) 0 := by rw [duties_bar m c]; exact Finset.mem_singleton_self _
omit [FloatOps F] in
theorem mem_duties_send (m : (ℓ : Loc nD τ sig) → Buf (Elt F) ℓ) (c : Dev nD) (d : Unit) : d ∈ (sched (F := F) m).duties (sendCell c) 0 := by rw [duties_send m c]; exact Finset.mem_singleton_self _
omit [FloatOps F] in
theorem mem_duties_recv (m : (ℓ : Loc nD τ sig) → Buf (Elt F) ℓ) (c : Dev nD) (d : Unit) : d ∈ (sched (F := F) m).duties (recvCell c) 0 := by rw [duties_recv m c]; exact Finset.mem_singleton_self _

/-! ## Amounts and expected units -/

omit [FloatOps F] in
theorem amount_bar (m : (ℓ : Loc nD τ sig) → Buf (Elt F) ℓ) (c : Dev nD) (d : Unit) : (sched (F := F) m).amount (barCell c) 0 d = 1 := by dsimp only [sched]; exact if_pos rfl
omit [FloatOps F] in
theorem amount_send (m : (ℓ : Loc nD τ sig) → Buf (Elt F) ℓ) (c : Dev nD) (d : Unit) : (sched (F := F) m).amount (sendCell c) 0 d = N := by dsimp only [sched]; exact if_neg send_ne_bar
omit [FloatOps F] in
theorem amount_recv (m : (ℓ : Loc nD τ sig) → Buf (Elt F) ℓ) (c : Dev nD) (d : Unit) : (sched (F := F) m).amount (recvCell c) 0 d = N := by dsimp only [sched]; exact if_neg recv_ne_bar

omit [FloatOps F] in
/-- A round with one duty expects that duty's amount. -/
theorem expect_of_single {Rd : Rounds.Schedule (GSem nD τ sig) Unit 𝕄} {g : GSem nD τ sig} {r : ℕ} {d : Unit} {n : ℕ}
    (hd : Rd.duties g r = {d}) (ha : Rd.amount g r d = n) : Rd.expect g r = n := by
  unfold Schedule.expect Schedule.amountOf; rw [hd, Finset.sum_singleton, ha]
omit [FloatOps F] in
theorem expect_bar (m : (ℓ : Loc nD τ sig) → Buf (Elt F) ℓ) (c : Dev nD) : (sched (F := F) m).expect (barCell c) 0 = 1 := expect_of_single (duties_bar m c) (amount_bar m c ())
omit [FloatOps F] in
theorem expect_send (m : (ℓ : Loc nD τ sig) → Buf (Elt F) ℓ) (c : Dev nD) : (sched (F := F) m).expect (sendCell c) 0 = N := expect_of_single (duties_send m c) (amount_send m c ())
omit [FloatOps F] in
theorem expect_recv (m : (ℓ : Loc nD τ sig) → Buf (Elt F) ℓ) (c : Dev nD) : (sched (F := F) m).expect (recvCell c) 0 = N := expect_of_single (duties_recv m c) (amount_recv m c ())

/-! ## Payloads -/

omit [FloatOps F] in
theorem payload_bar (m : (ℓ : Loc nD τ sig) → Buf (Elt F) ℓ) (c : Dev nD) (d : Unit) : (sched (F := F) m).payload (barCell c) 0 d = barPay m c := by dsimp only [sched]; rw [if_pos rfl]
omit [FloatOps F] in
theorem payload_send (m : (ℓ : Loc nD τ sig) → Buf (Elt F) ℓ) (c : Dev nD) (d : Unit) : (sched (F := F) m).payload (sendCell c) 0 d = sendPay m c := by
  dsimp only [sched]; rw [if_neg send_ne_bar, if_neg send_ne_recv, if_pos rfl]
omit [FloatOps F] in
theorem payload_recv (m : (ℓ : Loc nD τ sig) → Buf (Elt F) ℓ) (c : Dev nD) (d : Unit) : (sched (F := F) m).payload (recvCell c) 0 d = recvPay m c := by
  dsimp only [sched]; rw [if_neg recv_ne_bar, if_pos rfl]

omit [FloatOps F] in
/-- The unit a device puts on its PEER's barrier cell hands the peer the device's own rows for the peer's half, as
    launched, and that the device has reached round 0 of its own receive cell. -/
theorem barPay_peer (m : (ℓ : Loc nD τ sig) → Buf (Elt F) ℓ) (c : Dev nD) : barPay m (peer c) = iprop(rowsPts c (peer c) (o0 m c) ∗ reached ER (recvCell c) 0) := by
  unfold barPay; rw [peer_peer]
omit [FloatOps F] in
/-- The landing a device makes on its PEER's receive cell hands the peer its rows for the device's half, holding it. -/
theorem recvPay_peer (m : (ℓ : Loc nD τ sig) → Buf (Elt F) ℓ) (c : Dev nD) : recvPay m (peer c)
    = rowsPts (peer c) c ((landM c).view.write (Elt F) (o0 m (peer c)) ((xM : Memref sig .tc .hbm S16384x1024 .f32).view.read (Elt F) (x0 m c)) Finset.univ) := by
  unfold recvPay landed; rw [peer_peer]
omit [FloatOps F] in
theorem payload_bar_peer (m : (ℓ : Loc nD τ sig) → Buf (Elt F) ℓ) (c : Dev nD) (d : Unit) :
    (sched (F := F) m).payload (barCell (peer c)) 0 d = iprop(rowsPts c (peer c) (o0 m c) ∗ reached ER (recvCell c) 0) := by
  rw [payload_bar, barPay_peer]
omit [FloatOps F] in
theorem payload_recv_peer (m : (ℓ : Loc nD τ sig) → Buf (Elt F) ℓ) (c : Dev nD) (d : Unit) : (sched (F := F) m).payload (recvCell (peer c)) 0 d
    = rowsPts (peer c) c ((landM c).view.write (Elt F) (o0 m (peer c)) ((xM : Memref sig .tc .hbm S16384x1024 .f32).view.read (Elt F) (x0 m c)) Finset.univ) := by
  rw [payload_recv, recvPay_peer]

/-! ## A round from which no duty has been taken -/

omit [FloatOps F] in
theorem rest_bar (m : (ℓ : Loc nD τ sig) → Buf (Elt F) ℓ) (c : Dev nD) : bigSep ((sched (F := F) m).duties (barCell c) 0 \ ∅) (fun d => (sched (F := F) m).payload (barCell c) 0 d) = barPay m c := by
  rw [Finset.sdiff_empty, duties_bar, bigSep_singleton, payload_bar]
omit [FloatOps F] in
theorem rest_send (m : (ℓ : Loc nD τ sig) → Buf (Elt F) ℓ) (c : Dev nD) : bigSep ((sched (F := F) m).duties (sendCell c) 0 \ ∅) (fun d => (sched (F := F) m).payload (sendCell c) 0 d) = sendPay m c := by
  rw [Finset.sdiff_empty, duties_send, bigSep_singleton, payload_send]
omit [FloatOps F] in
theorem rest_recv (m : (ℓ : Loc nD τ sig) → Buf (Elt F) ℓ) (c : Dev nD) : bigSep ((sched (F := F) m).duties (recvCell c) 0 \ ∅) (fun d => (sched (F := F) m).payload (recvCell c) 0 d) = recvPay m c := by
  rw [Finset.sdiff_empty, duties_recv, bigSep_singleton, payload_recv]

end Tables

/-! ## The payloads are storable -/

omit [FloatOps F] in
instance sched_payload_storable (m : (ℓ : Loc nD τ sig) → Buf (Elt F) ℓ) (g : GSem nD τ sig) (r : ℕ) (d : Unit) :
    BI.Storable (upEmb : UEmb _ 𝕄) ((sched (F := F) m).payload g r d) := by
  show BI.Storable upEmb (if g.2 = .reg barS then barPay m g.1.1 else if g.2 = .dma recvS.sem then recvPay m g.1.1
    else if g.2 = .dma sendS.sem then sendPay m g.1.1 else iprop(emp))
  unfold barPay recvPay sendPay rowsPts xPts
  (repeat' split) <;> infer_instance

/-! ## The levels -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_recv (c : Dev nD) (u : Unit) : lv (recvCell c) u = 2 := by dsimp only [lv]; rw [if_neg recv_ne_bar, if_pos rfl]

/-- A device's entry dues are positive only at its peer's receive cell and at its peer's barrier cell. -/
theorem O₀_pos {c : Dev nD} {g : GSem nD τ sig} {u : Unit} (h : 0 < O₀ c g u) : g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- At its barrier wait a device still owes its peer's receive cell the half's credit, and nothing else: a receive cell,
    above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; exact le_of_eq (lv_bar c ()))
    (fun g u hg => by
      rw [tallyAt_apply] at hg
      by_cases h : g = recvCell (peer c) ∧ u = ()
      · rw [h.1, lv_recv]; decide
      · rw [if_neg h] at hg; exact absurd hg (Nat.lt_irrefl 0))

omit [FloatOps F] in
/-- Owing nothing, a device may wait on any of its cells. -/
theorem mayWait_zero (c : Dev nD) (sm : SemLoc sig) : (emp : sProp 𝕄) ⊢ MayWait (c : Thread nD τ) sm () 0 := by
  rw [MayWait_zero]; exact BI.Entails.refl _

omit [FloatOps F] in
theorem mayWait_zero' (c : Dev nD) (sm : SemLoc sig) : (levAts L lv : sProp 𝕄) ⊢ MayWait (c : Thread nD τ) sm () 0 := by
  rw [MayWait_zero]; iintro -; iempintro

/-- info: 'Cert.Kernel.Gather.mayWait_bar' depends on axioms: [propext, Classical.choice, Quot.sound] -/
#guard_msgs in #print axioms mayWait_bar

end Cert.Kernel.Gather

end
-- ==== Proof.KernelLaunchOf.lean ====
/-
  The all-gather along z: the launch.

  From any memory with every counter at zero, the eight devices' bodies run together to the end, and every device ends
  with its result array gathered and its half unchanged. The pieces, in the launch theorem's order: the protocol's
  ghost state at launch (every device's three cells at round 0, one duty token per cell) and how it is dealt (each
  device keeps its send token and gets its PEER's barrier and receive tokens: the duties it pays); the global step
  that allocates every cell's invariant at once (a barrier cell's invariant is opened by two devices); the launch credit
  (one unit on a device's barrier cell, the half's credit on its receive cell: what its peer owes it); the two arrays
  handed through as the unscoped rest; and the final read of both arrays against the state.
-/
import proofs.«900670_g7700000000000671_dist_ag_v7x_xyz2x2x2_z_m16384_n1024_f32_1_alg».proof.Proof.KernelTables

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

theorem ownSemFacts : Pipeline.OwnSemFacts cfg0.spec osem := by decide

omit [FloatOps F] in
theorem share_eq (m : (ℓ : Loc nD τ sig) → Buf (Elt F) ℓ) (c : Dev nD) (w : Fin cfg0.W) : (dats m 0 c).share w = fullShare := w.elim0

/-! ## The protocol's cells and tokens -/

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

/-- Each cell's one duty token as minted: (device, which cell). -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def protoToks : Finset (GSem nD τ sig × ℕ × Unit) := Finset.univ.map ⟨tokOf, tokOf_injective⟩

/-- The launch element: the pipeline library's (no staging cell), the protocol's, and the unit of the counters. -/
def u₀ : UU :=
  (initOf (Pipeline.cells cfgs cellOf_inj) (Pipeline.launchToks cfgs cellOf_inj), (initOf protoCells protoToks, (1 : Counters)))

/-- The duty tokens of device c's own cells. -/
def toks (c : Dev nD) : sProp 𝕄 :=
  iprop(dutyTok ER (barCell c) 0 () ∗ dutyTok ER (sendCell c) 0 () ∗ dutyTok ER (recvCell c) 0 ())

/-- What the launch element deals device c. -/
def G (m : (ℓ : Loc nD τ sig) → Buf (Elt F) ℓ) (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem fund_proto (m : (ℓ : Loc nD τ sig) → Buf (Elt F) ℓ) : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at launch -/

omit [FloatOps F] in
/-- The kernel's own six: the local copies' four, the send cell's, the receive cell's; -/
theorem ownSems0_eq (c : Dev nD) : (Pipeline.ownSems0 (Ix := Unit) (Name := ℕ) (U := UU) (Lvl := ℕ) (Val := Elt F) (τ := τ) osem c : sProp 𝕄)
    = iprop(localSems c ∗ semVal (sendCell c) 0 ∗ semVal (recvCell c) 0) := by
  rw [Pipeline.ownSems0_eq_of_list c osem [0, 1, 2, 3, 4, 5] (by decide) (by decide)]
  unfold localSems
  refine BI.Entails.antisymm (show (iprop(semVal (lcell c 0) 0 ∗ semVal (lcell c 1) 0 ∗ semVal (lcell c 2) 0 ∗ semVal (lcell c 3) 0 ∗ semVal (sendCell c) 0 ∗ semVal (recvCell c) 0) : sProp 𝕄) ⊢ _ from ?_)
    (show _ ⊢ (iprop(semVal (lcell c 0) 0 ∗ semVal (lcell c 1) 0 ∗ semVal (lcell c 2) 0 ∗ semVal (lcell c 3) 0 ∗ semVal (sendCell c) 0 ∗ semVal (recvCell c) 0) : sProp 𝕄) from ?_)
  · iintro ⟨H0, H1, H2, H3, H4, H5⟩
    isplitl [H0 H1 H2 H3]
    · isplitl [H0]; · iexact H0
      isplitl [H1]; · iexact H1
      isplitl [H2]; · iexact H2
      iexact H3
    isplitl [H4]; · iexact H4
    iexact H5
  · iintro ⟨⟨H0, H1, H2, H3⟩, H4, H5⟩
    isplitl [H0]; · iexact H0
    isplitl [H1]; · iexact H1
    isplitl [H2]; · iexact H2
    isplitl [H3]; · iexact H3
    isplitl [H4]; · iexact H4
    iexact H5
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The global step: every cell's invariant allocated, the tokens dealt to the devices that pay them -/

omit [FloatOps F] in
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ iprop(toks c ∗ localSems c)) := by
  unfold G
  rw [ownSems0_eq, unscopedSems0_eq]
  iintro ⟨⟨Hloc, HS, HV⟩, HB, Hst, Hat, Htok⟩
  ihave Hv := (show iprop(semVal (barCell c) 0 ∗ semVal (sendCell c) 0 ∗ semVal (recvCell c) 0)
      ⊢ (bigSep Finset.univ fun k : Fin 3 => semVal (kcell (c, k)) 0 : sProp 𝕄) from by rw [bigSep_fin3]) $$ [HB HS HV]
  · isplitl [HB]; · iexact HB
    isplitl [HS] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

def records (m : (ℓ : Loc nD τ sig) → Buf (Elt F) ℓ) (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (m : (ℓ : Loc nD τ sig) → Buf (Elt F) ℓ) (K : Dev nD × Fin 3 → ℕ) : BI.Persistent (records m K) := by unfold records; infer_instance

omit [FloatOps F] in
theorem inv_at (m : (ℓ : Loc nD τ sig) → Buf (Elt F) ℓ) (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens of the duties device c PAYS: its peer's barrier duty, its peer's receive duty, its own send duty. -/
def payToks (c : Dev nD) : sProp 𝕄 :=
  iprop(dutyTok ER (barCell (peer c)) 0 () ∗ dutyTok ER (recvCell (peer c)) 0 () ∗ dutyTok ER (sendCell c) 0 ())
/-- What stays with device c alone: its positions, the tokens it pays with, its local counters. -/
def linear (c : Dev nD) : sProp 𝕄 :=
  iprop((atPos ER (barCell c) 0 ∅ 0 ∗ atPos ER (sendCell c) 0 ∅ 0 ∗ atPos ER (recvCell c) 0 ∅ 0) ∗ payToks c ∗ localSems c)

omit [FloatOps F] in
theorem ghost_intro (m : (ℓ : Loc nD τ sig) → Buf (Elt F) ℓ) (K : Dev nD × Fin 3 → ℕ) (c : Dev nD) : iprop(records m K ∗ linear c) ⊢ G' m c := by
  unfold records linear payToks G' ghost invs
  iintro ⟨⟨#HI, #HR⟩, ⟨HaB, HaS, HaV⟩, ⟨HtB, HtV, HtS⟩, Hloc⟩
  isplitr [Hloc]
  · iexists K
    isplitr
    · isplitr; · iapply (inv_at m K (c, 0)); iexact HI
      isplitr; · iapply (inv_at m K (c, 1)); iexact HI
      isplitr; · iapply (inv_at m K (c, 2)); iexact HI
      isplitr; · iapply (inv_at m K (peer c, 0)); iexact HI
      iapply (inv_at m K (peer c, 2)); iexact HI
    isplitl [HaB]; · iexact HaB
    isplitl [HaS]; · iexact HaS
    isplitl [HaV]; · iexact HaV
    isplitr; · iapply (reached_at (F := F) (peer c, 0)); iexact HR
    isplitr; · iapply (reached_at (F := F) (peer c, 2)); iexact HR
    isplitr; · iapply (reached_at (F := F) (c, 1)); iexact HR
    isplitr; · iapply (reached_at (F := F) (c, 2)); iexact HR
    isplitl [HtB]; · iexact HtB
    isplitl [HtV]; · iexact HtV
    iexact HtS
  · iexact Hloc

omit [FloatOps F] in
/-- The tokens dealt across the z axis: a barrier's and a receive cell's token go to the peer, the send token stays. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv flip (fun c : Dev nD => (dutyTok ER (barCell c) 0 () : sProp 𝕄)),
    bigSep_univ_equiv flip (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup (m : (ℓ : Loc nD τ sig) → Buf (Elt F) ℓ) :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ iprop(toks c ∗ localSems c)) : sProp 𝕄)
      ⊢ bigSep Finset.univ (G' m) := by
  rw [bigSep_sep', bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok, Hloc⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq ((bigSep_sep' Finset.univ (fun c : Dev nD => bigSep Finset.univ fun k : Fin 3 => (atPos ER (kcell (c, k)) 0 ∅ 0 : sProp 𝕄))
        (fun c : Dev nD => iprop(payToks c ∗ localSems c))).symm)).trans
      (bigSep_mono fun c _ => show _ ⊢ linear c from Entails.of_eq (by unfold linear; rw [bigSep_fin3])))
    isplitl [Hat]; · iexact Hat
    iapply (Entails.of_eq (bigSep_sep' Finset.univ (fun c : Dev nD => (payToks c : sProp 𝕄)) (fun c : Dev nD => localSems c)).symm)
    isplitl [Htk]; · iexact Htk
    iexact Hloc

omit [FloatOps F] in
/-- The global step: own AND unscoped semaphores of every device at once. -/
theorem glob (m : (ℓ : Loc nD τ sig) → Buf (Elt F) ℓ) : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what a device's peer owes it -/

omit [FloatOps F] in
theorem O₀_eq : (O₀ : Dev nD → CellTallies nD τ sig Unit)
    = fun d => tallyAt ((((peer d : Dev nD)) : Thread nD τ), SemLoc.dma recvS.sem) () N + tallyAt ((((peer d : Dev nD)) : Thread nD τ), SemLoc.reg barS) () 1 := rfl

omit [FloatOps F] in
theorem creds (c : Dev nD) :
    (Pipeline.launchCred O₀ c : sProp 𝕄) ⊢ iprop(cred (tallyAt (barCell c) () 1) ∗ cred (tallyAt (recvCell c) () N)) := by
  rw [O₀_eq, Pipeline.launchCred_add]
  iintro ⟨HN, H1⟩
  isplitl [H1]
  · iapply (Pipeline.launchCred_tallyAt (SemLoc.reg barS) peer peer peer_peer peer_peer () 1 c); iexact H1
  · iapply (Pipeline.launchCred_tallyAt (SemLoc.dma recvS.sem) peer peer peer_peer peer_peer () N c); iexact HN

/-! ## The theorem's side conditions -/

omit [FloatOps F] in
theorem xPts_eq (m : (ℓ : Loc nD τ sig) → Buf (Elt F) ℓ) (c : Dev nD) (q : PosShare TreeShare) :
    xPts m c q = (((c : Thread nD τ).loc main_arg0) ↦{q} x0 m c : sProp 𝕄) := by
  unfold xPts; rw [View.set_whole]

omit [FloatOps F] in
/-- The two arrays, which no window stages, reach the body as launched. -/
theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    isplitl [Hx]; · rw [xPts_eq]; iexact Hx
    iexact Ho
  · iempintro

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- What the launch reads at the end: the half and the result array. -/
def Yend (m : (ℓ : Loc nD τ sig) → Buf (Elt F) ℓ) (c : Dev nD) : sProp 𝕄 :=
  iprop(xPts m c fullShare ∗ (((c : Thread nD τ).loc main_v1) ↦{fullShare} gathered m c))

theorem phi1_exit (m : (ℓ : Loc nD τ sig) → Buf (Elt F) ℓ) (c : Dev nD) :
    (dats m 0 c).Φ (Fin.last cfg0.N) ⊢ iprop(Yend m c ∗ Pipeline.ownSems0 osem c ∗ Pipeline.scopedRest cfg0.spec c) := by
  rw [show (dats m 0 c).Φ (Fin.last cfg0.N) = Φ₁ m c from rfl, scopedRest0_eq, ownSems0_eq]
  unfold Φ₁ Yend
  iintro ⟨Hx, Ho, Hr, Hloc, HzS, HzV⟩
  isplitl [Hx Ho]
  · isplitl [Hx] <;> iassumption
  isplitl [Hloc HzS HzV]
  · isplitl [Hloc]; · iexact Hloc
    isplitl [HzS] <;> iassumption
  iexact Hr

theorem waits (m : (ℓ : Loc nD τ sig) → Buf (Elt F) ℓ) (c : Dev nD) : (levAts L lv : sProp 𝕄) ⊢ Pipeline.cellsWaits cfgs (dats m) () 0 c :=
  Pipeline.cellsWaits_intro cfgs (dats m) () 0 c fun w s t => w.elim0

/-! ## The body obligation from the body lemma -/

omit [FloatOps F] in
theorem bigSep_W (Φ : Fin cfg0.W → sProp 𝕄) : bigSep Finset.univ Φ = iprop(emp) := by
  rw [show (Finset.univ : Finset (Fin cfg0.W)) = ∅ from rfl]; exact BI.bigSep_empty

/-- The body lemma, as the launch takes it: from what a device's body starts with (at any names of the invariants, any
    recorded waits), its body runs to what it ends with. -/
def SoundBody (m : (ℓ : Loc nD τ sig) → Buf (Elt F) ℓ) : Prop :=
  ∀ (K : Dev nD × Fin 3 → ℕ) (c : Dev nD) (W : Waits sig Unit) (Kt : PUnit → sProp 𝕄),
    iprop(bodyPre m K c W ∗ (bodyPost m c -∗ Kt ⟨⟩)) ⊢ wp frame (wpE (defs₀ (F := F)) 𝒱₀ c none) Set.univ (bodyAt0 t₀) Kt

set_option maxRecDepth 4000 in
/-- The library's body obligation on device c. -/
theorem body_obligation (m : (ℓ : Loc nD τ sig) → Buf (Elt F) ℓ) (hsound : SoundBody m) (c : Dev nD) :
    BodyObligation (dats (F := F) m 0 c) (defs₀ (F := F)) 𝒱₀ () Set.univ := fun t => by
  rw [fin_N t]
  rw [bigSep_W, bigSep_W]
  show iprop(Φ₀ m c ∗ (dats m 0 c).owesAt () t₀.castSucc ∗ emp)
    ⊢ wp frame (wpE (defs₀ (F := F)) 𝒱₀ c none) Set.univ (bodyAt0 t₀) (fun _ => iprop(Φ₁ m c ∗ (dats m 0 c).owesAt () t₀.succ ∗ emp))
  unfold Φ₀ start G'
  iintro ⟨⟨⟨⟨⟨%K, Hg⟩, Hloc⟩, H1, HN, Hlev, Hx, Ho⟩, Hscr⟩, ⟨%W, -, HO⟩, -⟩
  iapply (hsound K c W fun _ => iprop(Φ₁ m c ∗ (dats m 0 c).owesAt () t₀.succ ∗ emp))
  unfold bodyPre bodyPost
  isplitr []
  · isplitl [Hg]; · iexact Hg
    isplitl [Hloc]; · iexact Hloc
    isplitl [H1]; · iexact H1
    isplitl [HN]; · iexact HN
    isplitl [Hlev]; · iexact Hlev
    isplitl [Hx]; · iexact Hx
    isplitl [Ho]; · iexact Ho
    isplitl [Hscr]; · iexact Hscr
    iexact HO
  · iintro ⟨HΦ, %W', HO'⟩
    isplitl [HΦ]; · iexact HΦ
    isplitl [HO']
    · iexists W'
      isplitr; · ipureintro; exact fun _ _ => Or.inl trivial
      iexact HO'
    · iempintro

/-! ## The run -/

set_option maxRecDepth 8000 in
/-- At the compiled mesh of eight devices, for any float values, from any memory with zero counters: every weakly fair
    execution of @main (the eight kernels shaking hands pairwise across the z axis, each then sending its half to its peer
    and copying it into its own result) terminates, and every final state has each device's result array gathered and
    its half unchanged. -/
theorem run_main_of (m : (ℓ : Loc nD τ sig) → Buf (Elt F) ℓ) (ρ : Dev nD → PrngReg) (hsound : SoundBody m) :
    θ_run defs (onTc (τ := τ) (main (F := F))) ⟨m, fun _ => 0, ρ⟩
      (fun r => ∀ c : Dev nD, r.2.mem ((c : Thread nD τ).loc main_v1) = gathered m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hsound) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb embR _ _) $$ HX
      icases HX' with ⟨HR, -⟩
      imod (fund_proto m) $$ HR with HG
      imodintro
      isplitl [HP] <;> iassumption)
    (hglob := glob m)
    (hA := fun _ w => w.elim0) (hpf := fun _ k => k.elim0)
    (X := start m) (Y := Yend m) (Z := fun _ => iprop(emp))
    (hX := start_intro m ρ) (hin := phi0_intro m) (hout := phi1_exit m)
    (QY := fun c s => s.mem ((c : Thread nD τ).loc main_v1) = gathered m c
      ∧ s.mem ((c : Thread nD τ).loc main_arg0) = m ((c : Thread nD τ).loc main_arg0))
    (hY := fun c s' => by
      unfold Yend
      rw [xPts_eq]
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.Kernel.Gather.run_main_of' depends on axioms: [propext, Classical.choice, Quot.sound] -/
#guard_msgs in #print axioms run_main_of

end Cert.Kernel.Gather

end
-- ==== Proof.KernelPieces.lean ====
/-
  The all-gather along the mesh's z axis: the pieces a device holds its result array in.

  A device's result array (32768 rows of 1024) is held in nine pieces: the 16384 rows where the peer's half lands, and
  the eight 2048-row chunks of the rows where its own half goes. Stated here: the pieces partition the array (the two
  halves' rows; a half's rows into its eight chunks), what the gathered array holds on each piece, and that the nine
  pieces, each holding what the gathered array holds there, are the gathered array.
-/
import proofs.«900670_g7700000000000671_dist_ag_v7x_xyz2x2x2_z_m16384_n1024_f32_1_alg».proof.Proof.KernelProto

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The chunks' points-to; the source chunks -/

/-- Chunk r of device c's own rows of its result array, at contents f. -/
def chunkPts (c : Dev nD) (r : Fin 8) (f : Buf (Elt F) ((c : Thread nD τ).loc main_v1)) : sProp 𝕄 :=
  (chunkM c r).view.loc (c : Thread nD τ) ↦[(chunkM c r).view.set]{fullShare} f

theorem rowsPts_eq (c d : Dev nD) (f : Buf (Elt F) ((c : Thread nD τ).loc main_v1)) :
    rowsPts c d f = ((((c : Thread nD τ).loc main_v1) ↦[(landM d).view.set]{fullShare} f : sProp 𝕄)) := rfl

theorem chunkPts_eq (c : Dev nD) (r : Fin 8) (f : Buf (Elt F) ((c : Thread nD τ).loc main_v1)) :
    chunkPts c r f = ((((c : Thread nD τ).loc main_v1) ↦[(chunkM c r).view.set]{fullShare} f : sProp 𝕄)) := rfl

/-- Chunk r of a half lies inside the half. -/
theorem srcInb (r : Fin 8) : ∀ a, (![2048 * r.val, 0] : Fin 2 → ℕ) a + S2048x1024.size a ≤ S16384x1024.size a := by
  revert r; decide

/-- Chunk r (2048 rows) of a device's half, as the kernel slices it. -/
abbrev srcM (r : Fin 8) : Memref sig .tc .hbm S2048x1024 .f32 :=
  (xM).slice (Rect.unit (s := S16384x1024) ![2048 * r.val, 0] S2048x1024.size (srcInb r)) (fun _ => rfl)

/-! ### The pieces as the kernel spells them: each literal offset is the general chunk at its number -/
example : srcM 0 = (xM).slice (Rect.unit (s := S16384x1024) ![0, 0] S2048x1024.size inb_S16384x1024_S2048x1024_0_0) (fun _ => rfl) := rfl
example : srcM 1 = (xM).slice (Rect.unit (s := S16384x1024) ![2048, 0] S2048x1024.size inb_S16384x1024_S2048x1024_2048_0) (fun _ => rfl) := rfl
example : srcM 2 = (xM).slice (Rect.unit (s := S16384x1024) ![4096, 0] S2048x1024.size inb_S16384x1024_S2048x1024_4096_0) (fun _ => rfl) := rfl
example : srcM 3 = (xM).slice (Rect.unit (s := S16384x1024) ![6144, 0] S2048x1024.size inb_S16384x1024_S2048x1024_6144_0) (fun _ => rfl) := rfl
example : srcM 4 = (xM).slice (Rect.unit (s := S16384x1024) ![8192, 0] S2048x1024.size inb_S16384x1024_S2048x1024_8192_0) (fun _ => rfl) := rfl
example : srcM 5 = (xM).slice (Rect.unit (s := S16384x1024) ![10240, 0] S2048x1024.size inb_S16384x1024_S2048x1024_10240_0) (fun _ => rfl) := rfl
example : srcM 6 = (xM).slice (Rect.unit (s := S16384x1024) ![12288, 0] S2048x1024.size inb_S16384x1024_S2048x1024_12288_0) (fun _ => rfl) := rfl
example : srcM 7 = (xM).slice (Rect.unit (s := S16384x1024) ![14336, 0] S2048x1024.size inb_S16384x1024_S2048x1024_14336_0) (fun _ => rfl) := rfl
example (c : Dev nD) : chunkM c 0 = (oM).slice (Rect.unit (s := S32768x1024) (k0_off2 c 0#32) S2048x1024.size (k0_off2_inb c 0)) (fun _ => rfl) := rfl
example (c : Dev nD) : chunkM c 1 = (oM).slice (Rect.unit (s := S32768x1024) (k0_off2 c 2048#32) S2048x1024.size (k0_off2_inb c 1)) (fun _ => rfl) := rfl
example (c : Dev nD) : chunkM c 2 = (oM).slice (Rect.unit (s := S32768x1024) (k0_off2 c 4096#32) S2048x1024.size (k0_off2_inb c 2)) (fun _ => rfl) := rfl
example (c : Dev nD) : chunkM c 3 = (oM).slice (Rect.unit (s := S32768x1024) (k0_off2 c 6144#32) S2048x1024.size (k0_off2_inb c 3)) (fun _ => rfl) := rfl
example (c : Dev nD) : chunkM c 4 = (oM).slice (Rect.unit (s := S32768x1024) (k0_off2 c 8192#32) S2048x1024.size (k0_off2_inb c 4)) (fun _ => rfl) := rfl
example (c : Dev nD) : chunkM c 5 = (oM).slice (Rect.unit (s := S32768x1024) (k0_off2 c 10240#32) S2048x1024.size (k0_off2_inb c 5)) (fun _ => rfl) := rfl
example (c : Dev nD) : chunkM c 6 = (oM).slice (Rect.unit (s := S32768x1024) (k0_off2 c 12288#32) S2048x1024.size (k0_off2_inb c 6)) (fun _ => rfl) := rfl
example (c : Dev nD) : chunkM c 7 = (oM).slice (Rect.unit (s := S32768x1024) (k0_off2 c 14336#32) S2048x1024.size (k0_off2_inb c 7)) (fun _ => rfl) := rfl

/-! ## Which rows a piece is -/

/-- The rows of device d's half: [16384 (d % 2), 16384 (d % 2) + 16384). -/
theorem mem_land (d : Dev nD) (i : S32768x1024.Idx) :
    i ∈ (landM d).view.set ↔ 16384 * (d.val % 2) ≤ (i 0).val ∧ (i 0).val < 16384 * (d.val % 2) + 16384 := by
  have hs : (landM d).view.set = (Rect.unit (s := S32768x1024) (k0_off1 d) S16384x1024.size (k0_off1_inb d)).set :=
    View.set_slice_whole main_v1 _
  have h1 : (i 1).val < 1024 := (i 1).isLt
  rw [hs, Rect.mem_set_unit, k0_off1_eq d, Fin.forall_fin_two]
  constructor
  · rintro ⟨⟨a, b⟩, -⟩; exact ⟨a, b⟩
  · rintro ⟨a, b⟩; exact ⟨⟨a, b⟩, Nat.zero_le _, (Nat.zero_add _).symm ▸ h1⟩

/-- The rows of chunk r of device d's half: [16384 (d % 2) + 2048 r, … + 2048). -/
theorem mem_chunk (d : Dev nD) (r : Fin 8) (i : S32768x1024.Idx) :
    i ∈ (chunkM d r).view.set ↔ 16384 * (d.val % 2) + 2048 * r.val ≤ (i 0).val ∧ (i 0).val < 16384 * (d.val % 2) + 2048 * r.val + 2048 := by
  have hs : (chunkM d r).view.set
      = (Rect.unit (s := S32768x1024) (k0_off2 d (BitVec.ofNat 32 (2048 * r.val))) S2048x1024.size (k0_off2_inb d r)).set :=
    View.set_slice_whole main_v1 _
  have h1 : (i 1).val < 1024 := (i 1).isLt
  rw [hs, Rect.mem_set_unit, k0_off2_eq d r, Fin.forall_fin_two]
  constructor
  · rintro ⟨⟨a, b⟩, -⟩; exact ⟨a, b⟩
  · rintro ⟨a, b⟩; exact ⟨⟨a, b⟩, Nat.zero_le _, (Nat.zero_add _).symm ▸ h1⟩

/-- The two halves' rows share nothing, -/
theorem land_disjoint (c : Dev nD) : Disjoint (landM (peer c)).view.set (landM c).view.set := by
  rw [Finset.disjoint_left]
  intro i h1 h2
  have a := (mem_land (peer c) i).mp h1
  have b := (mem_land c i).mp h2
  have := peer_z c
  omega

/-- and are the whole array. -/
theorem land_cover (c : Dev nD) : (landM (peer c)).view.set ∪ (landM c).view.set = Finset.univ := by
  ext i
  simp only [Finset.mem_union, Finset.mem_univ, iff_true]
  have h0 : ((i : S32768x1024.Idx) 0).val < 32768 := ((i : S32768x1024.Idx) 0).isLt
  have := peer_z c
  by_cases h : 16384 * (c.val % 2) ≤ ((i : S32768x1024.Idx) 0).val ∧ ((i : S32768x1024.Idx) 0).val < 16384 * (c.val % 2) + 16384
  · exact Or.inr ((mem_land c i).mpr h)
  · exact Or.inl ((mem_land (peer c) i).mpr (by omega))

/-- A half's chunks share nothing, -/
theorem chunk_disjoint (c : Dev nD) (r r' : Fin 8) (h : r ≠ r') : Disjoint (chunkM c r).view.set (chunkM c r').view.set := by
  rw [Finset.disjoint_left]
  intro i h1 h2
  have a := (mem_chunk c r i).mp h1
  have b := (mem_chunk c r' i).mp h2
  exact h (Fin.ext (by omega))

/-- and are the half. -/
theorem chunk_cover (c : Dev nD) :
    (Finset.univ.biUnion fun r : Fin 8 => ((chunkM c r).view.set : Finset (Idx ((c : Thread nD τ).loc main_v1)))) = (landM c).view.set := by
  ext i
  rw [Finset.mem_biUnion]
  constructor
  · rintro ⟨r, -, hr⟩
    have a := (mem_chunk c r i).mp hr
    have := r.isLt
    exact (mem_land c i).mpr (by omega)
  · intro hi
    have a := (mem_land c i).mp hi
    obtain ⟨q, hq8, hq⟩ : ∃ q : ℕ, q < 8 ∧ (16384 * (c.val % 2) + 2048 * q ≤ ((i : S32768x1024.Idx) 0).val
        ∧ ((i : S32768x1024.Idx) 0).val < 16384 * (c.val % 2) + 2048 * q + 2048) :=
      ⟨(((i : S32768x1024.Idx) 0).val - 16384 * (c.val % 2)) / 2048, by omega, by omega, by omega⟩
    exact ⟨⟨q, hq8⟩, Finset.mem_univ _, (mem_chunk c ⟨q, hq8⟩ i).mpr hq⟩

/-! ## The array as its two halves' rows; a half's rows as its chunks -/

/-- The result array held whole is the rows where the peer's half lands and the rows where the device's own half
    goes. -/
theorem split_rows (c : Dev nD) (f : Buf (Elt F) ((c : Thread nD τ).loc main_v1)) :
    ((((c : Thread nD τ).loc main_v1) ↦{fullShare} f : sProp 𝕄)) = iprop(rowsPts c (peer c) f ∗ rowsPts c c f) := by
  rw [rowsPts_eq, rowsPts_eq]
  have hu : ((((c : Thread nD τ).loc main_v1) ↦[(landM (peer c)).view.set ∪ (landM c).view.set]{fullShare} f : sProp 𝕄))
      ⊣⊢ iprop(((((c : Thread nD τ).loc main_v1) ↦[(landM (peer c)).view.set]{fullShare} f))
        ∗ (((c : Thread nD τ).loc main_v1) ↦[(landM c).view.set]{fullShare} f)) := pointsTo_union (land_disjoint c)
  rw [land_cover c] at hu
  exact BI.equiv_iff.mp ⟨hu.1, hu.2⟩

/-- A family over eight, one after the other. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide,
    bigSep_insert (by decide), bigSep_insert (by decide), bigSep_insert (by decide), bigSep_insert (by decide),
    bigSep_insert (by decide), bigSep_insert (by decide), bigSep_insert (by decide), bigSep_singleton]
  rfl

/-- The rows where the device's own half goes are that half's eight chunks, -/
theorem split_chunks_big (c : Dev nD) (f : Buf (Elt F) ((c : Thread nD τ).loc main_v1)) :
    (rowsPts c c f : sProp 𝕄) = bigSep Finset.univ fun r : Fin 8 => chunkPts c r f := by
  have hb : ((((c : Thread nD τ).loc main_v1) ↦[Finset.univ.biUnion fun r : Fin 8 =>
        ((chunkM c r).view.set : Finset (Idx ((c : Thread nD τ).loc main_v1)))]{fullShare} f : sProp 𝕄))
      = bigSep Finset.univ fun r : Fin 8 => (((c : Thread nD τ).loc main_v1) ↦[(chunkM c r).view.set]{fullShare} f) :=
    pointsTo_biUnion Finset.univ _ (fun r _ r' _ h => chunk_disjoint c r r' h)
  rw [rowsPts_eq, ← chunk_cover c, hb]
  rfl

/-- one after the other. -/
theorem split_chunks (c : Dev nD) (f : Buf (Elt F) ((c : Thread nD τ).loc main_v1)) :
    (rowsPts c c f : sProp 𝕄) = iprop(chunkPts c 0 f ∗ chunkPts c 1 f ∗ chunkPts c 2 f ∗ chunkPts c 3 f ∗ chunkPts c 4 f ∗ chunkPts c 5 f
      ∗ chunkPts c 6 f ∗ chunkPts c 7 f) :=
  (split_chunks_big c f).trans (bigSep_fin8 fun r : Fin 8 => chunkPts c r f)

/-- The result array held whole is the nine pieces. -/
theorem split_out (c : Dev nD) (f : Buf (Elt F) ((c : Thread nD τ).loc main_v1)) :
    ((((c : Thread nD τ).loc main_v1) ↦{fullShare} f : sProp 𝕄)) = iprop(rowsPts c (peer c) f ∗ chunkPts c 0 f ∗ chunkPts c 1 f ∗ chunkPts c 2 f
      ∗ chunkPts c 3 f ∗ chunkPts c 4 f ∗ chunkPts c 5 f ∗ chunkPts c 6 f ∗ chunkPts c 7 f) := by
  rw [split_rows c f, split_chunks c f]

/-! ## What the gathered array holds on each piece -/

variable (m : (ℓ : Loc nD τ sig) → Buf (Elt F) ℓ)

/-- Where chunk r's element y sits in the result array: in the device's own half's rows, at the place of the half's
    chunk r's element y. -/
theorem chunk_emb (c : Dev nD) (r : Fin 8) (y : S2048x1024.Idx) :
    (chunkM c r).view.emb y = (landM c).view.emb ((srcM r).view.emb y) := by
  have key : ∀ a : Fin 2, k0_off2 c (BitVec.ofNat 32 (2048 * r.val)) a + 1 * (y a).val
      = k0_off1 c a + 1 * ((![2048 * r.val, 0] : Fin 2 → ℕ) a + 1 * (y a).val) := by
    rw [k0_off2_eq c r, k0_off1_eq c, Fin.forall_fin_two]
    constructor
    · show 16384 * (c.val % 2) + 2048 * r.val + 1 * (y 0).val = 16384 * (c.val % 2) + 1 * (2048 * r.val + 1 * (y 0).val)
      omega
    · show 0 + 1 * (y 1).val = 0 + 1 * (0 + 1 * (y 1).val)
      omega
  funext a
  exact Fin.ext (key a)

/-- On chunk r of its own half's rows the gathered array holds chunk r of the device's half. -/
theorem gathered_chunk (c : Dev nD) (r : Fin 8) (y : S2048x1024.Idx) :
    gathered m c ((chunkM c r).view.emb y) = (srcM r).view.read (Elt F) (x0 m c) y := by
  have hne : (chunkM c r).view.emb y ∉ (landM (peer c)).view.setOn Finset.univ := by
    rw [View.setOn_univ]
    intro hm
    have h1 := (mem_land (peer c) _).mp hm
    have h2 := (mem_chunk c r _).mp ((chunkM c r).view.emb_mem_set y)
    have := peer_z c
    have := r.isLt
    omega
  unfold gathered
  rw [View.write_of_not_mem _ _ _ hne, chunk_emb, View.write_emb_of_mem _ _ (Finset.mem_univ _), View.read_apply, View.read_apply]
  simp only [cast_cast, cast_eq]
  rfl

/-- On the rows where the peer's half lands the gathered array holds what the landing left. -/
theorem gathered_landed (c : Dev nD) (i : Idx ((c : Thread nD τ).loc main_v1)) (hi : i ∈ (landM (peer c)).view.set) :
    gathered m c i = landed m c i := by
  obtain ⟨y, -, rfl⟩ := Finset.mem_map.mp hi
  unfold gathered landed
  rw [View.write_emb_of_mem _ _ (Finset.mem_univ y), View.write_emb_of_mem _ _ (Finset.mem_univ y)]

/-! ## The nine pieces, each holding what the gathered array holds there, are the gathered array -/

theorem join_out (c : Dev nD) (g : Fin 8 → Buf (Elt F) ((c : Thread nD τ).loc main_v1))
    (h : ∀ r, ∀ i ∈ (chunkM c r).view.set, g r i = gathered m c i) :
    iprop(rowsPts c (peer c) (landed m c) ∗ chunkPts c 0 (g 0) ∗ chunkPts c 1 (g 1) ∗ chunkPts c 2 (g 2) ∗ chunkPts c 3 (g 3)
      ∗ chunkPts c 4 (g 4) ∗ chunkPts c 5 (g 5) ∗ chunkPts c 6 (g 6) ∗ chunkPts c 7 (g 7))
      ⊢ ((((c : Thread nD τ).loc main_v1) ↦{fullShare} gathered m c : sProp 𝕄)) := by
  have hc : ∀ r, (chunkPts c r (g r) : sProp 𝕄) = chunkPts c r (gathered m c) := fun r => by
    rw [chunkPts_eq, chunkPts_eq]; exact pointsTo_congr (h r)
  have hl : (rowsPts c (peer c) (landed m c) : sProp 𝕄) = rowsPts c (peer c) (gathered m c) := by
    rw [rowsPts_eq, rowsPts_eq]; exact pointsTo_congr fun i hi => (gathered_landed m c i hi).symm
  rw [hc 0, hc 1, hc 2, hc 3, hc 4, hc 5, hc 6, hc 7, hl, ← split_chunks c (gathered m c), ← split_rows c (gathered m c)]

/-- The same, the chunks' contents compared at the chunks' own indices. -/
theorem join_out' (c : Dev nD) (g : Fin 8 → Buf (Elt F) ((c : Thread nD τ).loc main_v1))
    (h : ∀ (r : Fin 8) (y : S2048x1024.Idx), g r ((chunkM c r).view.emb y) = gathered m c ((chunkM c r).view.emb y)) :
    iprop(rowsPts c (peer c) (landed m c) ∗ chunkPts c 0 (g 0) ∗ chunkPts c 1 (g 1) ∗ chunkPts c 2 (g 2) ∗ chunkPts c 3 (g 3)
      ∗ chunkPts c 4 (g 4) ∗ chunkPts c 5 (g 5) ∗ chunkPts c 6 (g 6) ∗ chunkPts c 7 (g 7))
      ⊢ ((((c : Thread nD τ).loc main_v1) ↦{fullShare} gathered m c : sProp 𝕄)) :=
  join_out m c g fun r i hi => by
    obtain ⟨y, -, rfl⟩ := Finset.mem_map.mp hi
    exact h r y

/-- info: 'Cert.Kernel.Gather.join_out'' depends on axioms: [propext, Classical.choice, Quot.sound] -/
#guard_msgs in #print axioms join_out'

end Cert.Kernel.Gather

end
-- ==== Proof.KernelBody.lean ====
/-
  The all-gather along z: one device's body, run once at a symbolic device.

  From what the device starts with — its protocol ghost state, the four local counters at zero, its credit for the peer's
  barrier unit and for the peer's landing, its half and its result array as launched, the staging scratch — the body:
  puts one unit on the peer's barrier cell, handing over the rows of its own result array where the peer's half will land
  (as launched) and that it has reached round 0 of its receive cell; waits for the peer's unit, which hands it the same of
  the peer; sends its half (a right half-share of it, so that the chunk copies can read the half meanwhile) into those rows
  of the peer's array, which pays the peer's receive cell with those rows at the half written over the launched contents;
  copies its half chunk by chunk, through the two staging slots, into the eight chunks of its own rows; and waits for its
  send cell (the share comes back) and its receive cell (its rows for the peer's half come back, holding it).

  For that the result array is held in nine pieces (the peer's rows, and the eight chunks each by exactly its own
  elements); at the end chunk r holds the launched array with chunk r of the half written, the nine pieces are the array
  gathered, the two half-shares are the half again, and the send and receive cells, their one round consumed, are closed.
-/
import proofs.«900670_g7700000000000671_dist_ag_v7x_xyz2x2x2_z_m16384_n1024_f32_1_alg».proof.Proof.KernelTables
import proofs.«900670_g7700000000000671_dist_ag_v7x_xyz2x2x2_z_m16384_n1024_f32_1_alg».proof.Proof.KernelPieces

noncomputable section

namespace Cert.Kernel.Gather

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- the kernel's two device chains name the peer: the addressed signal and transfer are read at the peer along these
attribute [local sl_canon] dev1_eq dev2_eq

/-! ## The payloads, each spelt as the points-to it is (with the peer of the peer resolved where the paying device meets it) -/

section Pts
variable (c : Dev nD) (d : Unit)
omit [FloatOps F] in
theorem payload_bar_peer_pts :
    (sched (F := F) m).payload (barCell (peer c)) 0 d
      = iprop(((landM (peer c)).view.loc (c : Thread nD τ) ↦[(landM (peer c)).view.set]{fullShare} o0 m c) ∗ reached ER (recvCell c) 0) :=
  payload_bar_peer m c d
omit [FloatOps F] in
theorem payload_recv_peer_pts :
    (sched (F := F) m).payload (recvCell (peer c)) 0 d
      = ((landM c).view.loc (peer c : Thread nD τ) ↦[(landM c).view.set]{fullShare}
          ((landM c).view.write (Elt F) (o0 m (peer c)) ((xM : Memref sig .tc .hbm S16384x1024 .f32).view.read (Elt F) (x0 m c)) Finset.univ) : sProp 𝕄) :=
  payload_recv_peer m c d
omit [FloatOps F] in
theorem payload_bar_pts :
    (sched (F := F) m).payload (barCell c) 0 d
      = iprop(((landM c).view.loc (peer c : Thread nD τ) ↦[(landM c).view.set]{fullShare} o0 m (peer c)) ∗ reached ER (recvCell (peer c)) 0) :=
  payload_bar m c d
omit [FloatOps F] in
theorem payload_recv_pts :
    (sched (F := F) m).payload (recvCell c) 0 d
      = ((landM (peer c)).view.loc (c : Thread nD τ) ↦[(landM (peer c)).view.set]{fullShare} landed m c : sProp 𝕄) :=
  payload_recv m c d
omit [FloatOps F] in
theorem payload_send_pts :
    (sched (F := F) m).payload (sendCell c) 0 d
      = ((xM : Memref sig .tc .hbm S16384x1024 .f32).view.loc (c : Thread nD τ) ↦[(xM : Memref sig .tc .hbm S16384x1024 .f32).view.set]{fullShare.right} x0 m c : sProp 𝕄) :=
  payload_send m c d
end Pts

omit [FloatOps F] in
theorem vPts_eq (c : Dev nD) (fv : Buf (Elt F) ((c : Thread nD τ).loc cc0_scratch0)) :
    ((vM : Memref sig .tc .vmem S2x2048x1024 .f32).view.loc (c : Thread nD τ) ↦[(vM : Memref sig .tc .vmem S2x2048x1024 .f32).view.set]{fullShare} fv : sProp 𝕄)
      = (((c : Thread nD τ).loc cc0_scratch0) ↦{fullShare} fv) := by rw [View.set_whole]

omit [FloatOps F] in
/-- A chunk filled by one copy out of a staging slot that one copy had filled from Q holds Q, over what it held. -/
theorem piece_eq (cv : View sig .tc .hbm S2048x1024 .f32) (sv : View sig .tc .vmem S2048x1024 .f32) (f0 : cv.ty.Contents (Elt F))
    (pv : sv.ty.Contents (Elt F)) (Q : S2048x1024.Idx → Elt F .f32) :
    cv.writes (Elt F) f0 [⟨Rect.whole S2048x1024, ReadAs.same.apply (sv.read (Elt F) (sv.write (Elt F) pv (ReadAs.same.apply Q) Finset.univ))⟩]
      = cv.write (Elt F) f0 Q Finset.univ := by
  rw [ReadAs.apply_same, ReadAs.apply_same, View.read_write_univ]
  exact (View.write_univ_eq_writes_whole cv f0 [] Q).symm

/-- What chunk r of a device's own half holds at the end: its result array as launched with chunk r of its half written. -/
def ownChunk (c : Dev nD) (r : Fin 8) : Buf (Elt F) ((c : Thread nD τ).loc main_v1) :=
  (chunkM c r).view.write (Elt F) (o0 m c) ((srcM r).view.read (Elt F) (x0 m c)) Finset.univ

theorem ownChunk_gathered (c : Dev nD) (r : Fin 8) (y : S2048x1024.Idx) :
    ownChunk m c r ((chunkM c r).view.emb y) = gathered m c ((chunkM c r).view.emb y) := by
  rw [gathered_chunk m c r y]
  exact View.write_emb_of_mem _ _ (Finset.mem_univ y)

/-- The nine pieces of a device's result array at the end of its body — the peer's rows holding the peer's half, each of
    its own eight chunks holding that chunk of its own half — are the array gathered. -/
theorem join8 (c : Dev nD) :
    iprop(((landM (peer c)).view.loc (c : Thread nD τ) ↦[(landM (peer c)).view.set]{fullShare} landed m c)
        ∗ ((chunkM c 0).view.loc (c : Thread nD τ) ↦[(chunkM c 0).view.set]{fullShare}
          View.write (Elt F) (chunkM c 0).view (o0 m c) (View.read (Elt F) ((xM).slice (Rect.unit (s := S16384x1024) ![0, 0] S2048x1024.size Facts₀.inb_S16384x1024_S2048x1024_0_0) (fun _ => rfl)).view (x0 m c)) Finset.univ)
        ∗ ((chunkM c 1).view.loc (c : Thread nD τ) ↦[(chunkM c 1).view.set]{fullShare}
          View.write (Elt F) (chunkM c 1).view (o0 m c) (View.read (Elt F) ((xM).slice (Rect.unit (s := S16384x1024) ![2048, 0] S2048x1024.size Facts₀.inb_S16384x1024_S2048x1024_2048_0) (fun _ => rfl)).view (x0 m c)) Finset.univ)
        ∗ ((chunkM c 2).view.loc (c : Thread nD τ) ↦[(chunkM c 2).view.set]{fullShare}
          View.write (Elt F) (chunkM c 2).view (o0 m c) (View.read (Elt F) ((xM).slice (Rect.unit (s := S16384x1024) ![4096, 0] S2048x1024.size Facts₀.inb_S16384x1024_S2048x1024_4096_0) (fun _ => rfl)).view (x0 m c)) Finset.univ)
        ∗ ((chunkM c 3).view.loc (c : Thread nD τ) ↦[(chunkM c 3).view.set]{fullShare}
          View.write (Elt F) (chunkM c 3).view (o0 m c) (View.read (Elt F) ((xM).slice (Rect.unit (s := S16384x1024) ![6144, 0] S2048x1024.size Facts₀.inb_S16384x1024_S2048x1024_6144_0) (fun _ => rfl)).view (x0 m c)) Finset.univ)
        ∗ ((chunkM c 4).view.loc (c : Thread nD τ) ↦[(chunkM c 4).view.set]{fullShare}
          View.write (Elt F) (chunkM c 4).view (o0 m c) (View.read (Elt F) ((xM).slice (Rect.unit (s := S16384x1024) ![8192, 0] S2048x1024.size Facts₀.inb_S16384x1024_S2048x1024_8192_0) (fun _ => rfl)).view (x0 m c)) Finset.univ)
        ∗ ((chunkM c 5).view.loc (c : Thread nD τ) ↦[(chunkM c 5).view.set]{fullShare}
          View.write (Elt F) (chunkM c 5).view (o0 m c) (View.read (Elt F) ((xM).slice (Rect.unit (s := S16384x1024) ![10240, 0] S2048x1024.size Facts₀.inb_S16384x1024_S2048x1024_10240_0) (fun _ => rfl)).view (x0 m c)) Finset.univ)
        ∗ ((chunkM c 6).view.loc (c : Thread nD τ) ↦[(chunkM c 6).view.set]{fullShare}
          View.write (Elt F) (chunkM c 6).view (o0 m c) (View.read (Elt F) ((xM).slice (Rect.unit (s := S16384x1024) ![12288, 0] S2048x1024.size Facts₀.inb_S16384x1024_S2048x1024_12288_0) (fun _ => rfl)).view (x0 m c)) Finset.univ)
        ∗ ((chunkM c 7).view.loc (c : Thread nD τ) ↦[(chunkM c 7).view.set]{fullShare}
          View.write (Elt F) (chunkM c 7).view (o0 m c) (View.read (Elt F) ((xM).slice (Rect.unit (s := S16384x1024) ![14336, 0] S2048x1024.size Facts₀.inb_S16384x1024_S2048x1024_14336_0) (fun _ => rfl)).view (x0 m c)) Finset.univ))
      ⊢ ((((c : Thread nD τ).loc main_v1) ↦{fullShare} gathered m c) : sProp 𝕄) :=
  join_out' (F := F) m c (ownChunk m c) (ownChunk_gathered m c)

/-! ## The body -/

attribute [local sl_rounds] duties_bar duties_send duties_recv amount_bar amount_send amount_recv expect_bar expect_send expect_recv
  mem_duties_bar mem_duties_send mem_duties_recv payload_bar_pts payload_recv_pts payload_send_pts
attribute [local sl_rounds high] payload_bar_peer_pts payload_recv_peer_pts

set_option maxHeartbeats 4000000 in
/-- One device's body from bodyPre to bodyPost: the signal, the barrier wait, the transfer, the sixteen chunk copies with
    their waits and the two closing waits, each by its rule in program order; then the pieces' contents are read and
    joined, the two half-shares joined, and the two cells closed. -/
theorem sound_body (K : Dev nD × Fin 3 → ℕ) (c : Dev nD) (W : Waits sig Unit) (Kt : PUnit → sProp 𝕄) :
    iprop(bodyPre m K c W ∗ (bodyPost m c -∗ Kt ⟨⟩))
      ⊢ wp frame (wpE (defs₀ (F := F)) 𝒱₀ c none) Set.univ (bodyAt0 (F := F) t₀) Kt := by
  show _ ⊢ wp frame _ Set.univ (cc0_body (Memref.whole main_arg0) (Memref.isWhole_whole _) (Memref.whole main_v1) (Memref.isWhole_whole _) (Memref.whole cc0_scratch0) (Memref.isWhole_whole _) cc0_scratch1 cc0_scratch2 cc0_scratch3 cc0_scratch4) Kt
  sl_unfold [cc0_body]
  unfold bodyPre ghost invs localSems
  iintro ⟨⟨⟨⟨#HIbar, #HIsnd, #HIrcv, #HIbarP, #HIrcvP⟩, HatB, HatS, HatV, #HrBP, #HrVP, #HrS, #HrV, HtBP, HtVP, HtS⟩, ⟨Hl0, Hl1, Hl2, Hl3⟩, HcB, HcV, #Hlev, Hx, Ho, ⟨%fv, Hv⟩, HO⟩, Hk⟩
  -- the result array in nine pieces: the peer's rows and the eight chunks of the device's own rows
  ihave Ho' := (Entails.of_eq (split_out c (o0 m c))) $$ Ho
  icases Ho' with ⟨Hrows, Hc0, Hc1, Hc2, Hc3, Hc4, Hc5, Hc6, Hc7⟩
  -- the half in two half-shares: the right one travels with the transfer, the left one feeds the chunk copies
  unfold xPts
  ihave Hx' := (pointsTo_share (PosShare.mem_left_op_right fullShare)).1 $$ Hx
  icases Hx' with ⟨HxL, HxR⟩
  unfold rowsPts chunkPts O₀
  ihave Hv' := (Entails.of_eq (vPts_eq c fv).symm) $$ Hv
  -- at its barrier wait the device still owes the peer's receive cell, which sits above its barrier cell
  have hmw := mayWait_bar (F := F) c
  sl_exec (disch := simp only [dev1_eq, dev2_eq])
  -- each chunk holds the launched array with that chunk of the half written
  sl_unfold_words
  rw [piece_eq, piece_eq, piece_eq, piece_eq, piece_eq, piece_eq, piece_eq, piece_eq]
  ihave Hout := (join8 (F := F) m c) $$ [HatV_pay1 Hc0 Hc1 Hc2 Hc3 Hc4 Hc5 Hc6 Hc7]
  · isplitl [HatV_pay1]; · iexact HatV_pay1
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  -- the two half-shares are the half again
  ihave Hx := (pointsTo_share (PosShare.mem_left_op_right fullShare)).2 $$ [HxL HatS_pay1]
  · isplitl [HxL] <;> iassumption
  -- the send and receive cells have no later round: closed, their counters at zero are the device's again
  imod (Rounds.cell_close ER (sched m) (Set.mem_univ (K (c, 1))) (fun h => h) (R := 1) (duties_later m (sendCell c))) $$ [HatS] with HzS
  · isplitr; · iexact HIsnd
    iexact HatS
  imod (Rounds.cell_close ER (sched m) (Set.mem_univ (K (c, 2))) (fun h => h) (R := 1) (duties_later m (recvCell c))) $$ [HatV] with HzV
  · isplitr; · iexact HIrcv
    iexact HatV
  rw [wp_ret]; imodintro
  iapply Hk
  unfold bodyPost Φ₁ xPts localSems
  isplitr [HO]
  · isplitl [Hx]; · iexact Hx
    isplitl [Hout]; · iexact Hout
    isplitl [Hv']
    · iexists _
      ihave Hv2 := (Entails.of_eq (vPts_eq c _)) $$ Hv'
      iexact Hv2
    isplitl [Hl0 Hl1 Hl2 Hl3]
    · isplitl [Hl0]; · iexact Hl0
      isplitl [Hl1]; · iexact Hl1
      isplitl [Hl2]; · iexact Hl2
      iexact Hl3
    isplitl [HzS]; · iexact HzS
    iexact HzV
  · iexists _; iexact HO

/-- info: 'Cert.Kernel.Gather.sound_body' depends on axioms: [propext, Classical.choice, Quot.sound] -/
#guard_msgs in #print axioms sound_body

end Cert.Kernel.Gather

end
-- ==== Proof.KernelLaunch.lean ====
/-
  The all-gather along z: the run.

  The launch, handed the body lemma: from any memory with every counter at zero, every weakly fair execution of the
  eight devices' kernels terminates, and every final state has each device's result array gathered and its half
  unchanged.
-/
import proofs.«900670_g7700000000000671_dist_ag_v7x_xyz2x2x2_z_m16384_n1024_f32_1_alg».proof.Proof.KernelLaunchOf
import proofs.«900670_g7700000000000671_dist_ag_v7x_xyz2x2x2_z_m16384_n1024_f32_1_alg».proof.Proof.KernelBody

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem run_main (m : (ℓ : Loc nD τ sig) → Buf (Elt F) ℓ) (ρ : Dev nD → PrngReg) :
    θ_run defs (onTc (τ := τ) (main (F := F))) ⟨m, fun _ => 0, ρ⟩
      (fun r => ∀ c : Dev nD, r.2.mem ((c : Thread nD τ).loc main_v1) = gathered m c
        ∧ r.2.mem ((c : Thread nD τ).loc main_arg0) = m ((c : Thread nD τ).loc main_arg0)) :=
  run_main_of m ρ (fun K c W Kt => sound_body m K c W Kt)

/-- info: 'Cert.Kernel.Gather.run_main' depends on axioms: [propext, Classical.choice, Quot.sound] -/
#guard_msgs in #print axioms run_main

end Cert.Kernel.Gather

end
-- ==== Proof.KernelIdealProto.lean ====
/-
  The all-gather along the mesh's z axis: the protocol's vocabulary.

  Device c sits at (c / 4, c / 2 % 2, c % 2); its PEER is the device whose z coordinate is flipped. A device holds one
  half of the rows of the whole array (rows [16384 (c % 2), 16384 (c % 2) + 16384)) and must end holding all of them.
  It tells its peer it has entered (one unit on the peer's barrier cell), waits for the peer's unit, sends its half into
  the peer's result array at the rows that half occupies in the whole array, copies the same half chunk by chunk into its
  own result array at those rows, and waits for everything: its own chunks, its transfer's source read, and the peer's half
  landed.

  Stated here, for every float instance: the peer, the three cells of a device that other devices pay or wait on (barrier,
  send, receive), what each cell's one duty hands its owner (the payloads, with the CONTENTS of each landing), what a
  device owes at entry, the levels, what a device starts from and what it ends with, and the array every device ends
  holding (gathered).
-/
import proofs.«900670_g7700000000000671_dist_ag_v7x_xyz2x2x2_z_m16384_n1024_f32_1_alg».proof.Proof.Gen.KernelIdeal
import proofs.«900670_g7700000000000671_dist_ag_v7x_xyz2x2x2_z_m16384_n1024_f32_1_alg».proof.Proof.Gen.KernelIdeal.Skeleton
import proofs.«900670_g7700000000000671_dist_ag_v7x_xyz2x2x2_z_m16384_n1024_f32_1_alg».proof.Proof.Gen.KernelIdeal.Launch
import proofs.«900670_g7700000000000671_dist_ag_v7x_xyz2x2x2_z_m16384_n1024_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the protocol's (one duty per round, named by Unit), and the exclusive
counters the local copies' invariants take their tokens from -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER embR; infer_instance

variable (m : (ℓ : Loc nD τ sig) → Buf (Elt F) ℓ) (ρ : Dev nD → PrngReg)

/-! ## The peer -/

/-- The device at the same x and y whose z coordinate is the other one. -/
def peer (c : Dev nD) : Dev nD := ⟨(4 * (c.val / 4) + 2 * ((c.val / 2) % 2) + 1) - (c.val % 2), (k0_dev1_eq c) ▸ k0_dev1_lt c⟩

theorem peer_peer (c : Dev nD) : peer (peer c) = c := by revert c; decide
theorem peer_ne (c : Dev nD) : peer c ≠ c := by revert c; decide
/-- The peer holds the other half: its z coordinate is the other one. -/
theorem peer_z (c : Dev nD) : (peer c).val % 2 = 1 - c.val % 2 := by revert c; decide

/-- The kernel's two device chains (the signal's and the transfer's) both name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def flip : Dev nD ≃ Dev nD := ⟨peer, peer, peer_peer, peer_peer⟩

/-! ## The memrefs and the cells -/

/-- A device's half (the argument), the result array, the two-slot staging scratch. -/
abbrev xM : Memref sig .tc .hbm S16384x1024 .f32 := Memref.whole main_arg0
abbrev oM : Memref sig .tc .hbm S32768x1024 .f32 := Memref.whole main_v1
abbrev vM : Memref sig .tc .vmem S2x2048x1024 .f32 := Memref.whole cc0_scratch0

/-- The rows of a result array that device d's half occupies: rows [16384 (d % 2), +16384), as the kernel slices them. -/
abbrev landM (d : Dev nD) : Memref sig .tc .hbm S16384x1024 .f32 :=
  (oM).slice (Rect.unit (s := S32768x1024) (k0_off1 d) S16384x1024.size (k0_off1_inb d)) (fun _ => rfl)

/-- Chunk r (2048 rows) of device d's half inside a result array, as the kernel slices it. -/
abbrev chunkM (d : Dev nD) (r : Fin 8) : Memref sig .tc .hbm S2048x1024 .f32 :=
  (oM).slice (Rect.unit (s := S32768x1024) (k0_off2 d (BitVec.ofNat 32 (2048 * r.val))) S2048x1024.size (k0_off2_inb d r)) (fun _ => rfl)

/-- The runtime's barrier semaphore; the transfer's send and receive semaphores. -/
abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch indexes them: the four of the local chunk copies (in 0, in 1,
    out 0, out 1), then send, then receive. -/
abbrev osem : Fin 6 → SemLoc sig := fun k => .dma ⟨k.val, k.isLt⟩
/-- The protocol's three cells of a device: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)
/-- The local chunk copies' four semaphores. -/
abbrev lsem : Fin 4 → SemLoc sig := fun k => .dma ⟨k.val, Nat.lt_of_lt_of_le k.isLt (by decide)⟩
abbrev lcell (c : Dev nD) (k : Fin 4) : GSem nD τ sig := ((c : Thread nD τ), lsem k)

/-- The transfer's credit: the half's size in the engine's units. -/
abbrev N : ℕ := (xM : Memref sig .tc .hbm S16384x1024 .f32).view.dmaCredit
theorem N_pos : 0 < N := View.dmaCredit_pos _ (by decide)

/-! ## Contents -/

/-- Device c's half and its result array as launched. -/
def x0 (c : Dev nD) : Buf (Elt F) ((c : Thread nD τ).loc main_arg0) := m ((c : Thread nD τ).loc main_arg0)
def o0 (c : Dev nD) : Buf (Elt F) ((c : Thread nD τ).loc main_v1) := m ((c : Thread nD τ).loc main_v1)

/-- Device c's result array once its peer's half has landed at the peer's rows (the rest as launched). -/
def landed (c : Dev nD) : Buf (Elt F) ((c : Thread nD τ).loc main_v1) :=
  (landM (peer c)).view.write (Elt F) (o0 m c) ((xM : Memref sig .tc .hbm S16384x1024 .f32).view.read (Elt F) (x0 m (peer c))) Finset.univ

/-- What every device ends holding: its result array as launched with its own half written at its own rows and the
    peer's half at the peer's rows. -/
def gathered (c : Dev nD) : Buf (Elt F) ((c : Thread nD τ).loc main_v1) :=
  (landM (peer c)).view.write (Elt F)
    ((landM c).view.write (Elt F) (o0 m c) ((xM : Memref sig .tc .hbm S16384x1024 .f32).view.read (Elt F) (x0 m c)) Finset.univ)
    ((xM : Memref sig .tc .hbm S16384x1024 .f32).view.read (Elt F) (x0 m (peer c))) Finset.univ

/-! ## The points-to assertions the protocol moves around -/

/-- Device c's half at share q. -/
def xPts (c : Dev nD) (q : PosShare TreeShare) : sProp 𝕄 :=
  (xM : Memref sig .tc .hbm S16384x1024 .f32).view.loc (c : Thread nD τ) ↦[(xM : Memref sig .tc .hbm S16384x1024 .f32).view.set]{q} x0 m c
/-- The rows of device c's result array where device d's half goes, at contents f. -/
def rowsPts (c d : Dev nD) (f : Buf (Elt F) ((c : Thread nD τ).loc main_v1)) : sProp 𝕄 :=
  (landM d).view.loc (c : Thread nD τ) ↦[(landM d).view.set]{fullShare} f

/-! ## The schedule: one round, one duty per cell -/

/-- What the peer's unit on c's barrier cell hands c: the rows of the PEER's result array where c's half goes, as
    launched, and that the peer has reached round 0 of its receive cell. -/
def barPay (c : Dev nD) : sProp 𝕄 := iprop(rowsPts (peer c) c (o0 m (peer c)) ∗ reached ER (recvCell (peer c)) 0)
/-- What the landing on c's receive cell hands c: the rows of c's result array holding the peer's half. -/
def recvPay (c : Dev nD) : sProp 𝕄 := rowsPts c (peer c) (landed m c)
/-- What c's send cell hands back: the share of its half the transfer read. -/
def sendPay (c : Dev nD) : sProp 𝕄 := xPts m c fullShare.right

abbrev IsProto (g : GSem nD τ sig) : Prop := g.1.2 = .tc ∧ (g.2 = .reg barS ∨ g.2 = .dma sendS.sem ∨ g.2 = .dma recvS.sem)

def sched : Rounds.Schedule (GSem nD τ sig) Unit 𝕄 where
  duties g r := if r = 0 ∧ IsProto g then {()} else ∅
  unitless _ := False
  amount g _ _ := if g.2 = .reg barS then 1 else N
  payload g _ _ :=
    if g.2 = .reg barS then barPay m g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

/-! ## What a device owes at entry; the levels -/

/-- Device c owes the peer's receive cell the half's credit and the peer's barrier cell one unit (the signal, first,
    peels the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (send, the local copies') at 0. -/
def lv (g : GSem nD τ sig) (_ : Unit) : ℕ := if g.2 = .reg barS then 1 else if g.2 = .dma recvS.sem then 2 else 0

/-! ## What a device starts from and ends with -/

/-- The cells' invariants device c's body opens, at the names K the launch allocated them at: its own three, the
    peer's barrier cell (its signal) and the peer's receive cell (its transfer). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The protocol's ghost state device c starts from: the invariants; its positions at round 0 of its three cells; round
    0 reached of the cells it pays and of its own send and receive cells; the three duty tokens it pays with (the
    peer's barrier duty, the peer's receive duty, its own send duty). -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- The local copies' four counters at zero. -/
def localSems (c : Dev nD) : sProp 𝕄 :=
  iprop(semVal (lcell c 0) 0 ∗ semVal (lcell c 1) 0 ∗ semVal (lcell c 2) 0 ∗ semVal (lcell c 3) 0)

/-- What the launch's global step makes for device c. -/
def G' (c : Dev nD) : sProp 𝕄 := iprop((∃ K, ghost m K c) ∗ localSems c)

/-- What device c's body starts from, the scratch apart: the ghost state, the local counters, its two credit tokens (its
    barrier's unit, its receive cell's credit), the levels, and its two arrays as launched. -/
def start (c : Dev nD) : sProp 𝕄 :=
  iprop(G' m c ∗ cred (tallyAt (barCell c) () 1) ∗ cred (tallyAt (recvCell c) () N) ∗ levAts L lv
    ∗ xPts m c fullShare ∗ (((c : Thread nD τ).loc main_v1) ↦{fullShare} o0 m c))

def Φ₀ (c : Dev nD) : sProp 𝕄 := iprop(start m c ∗ ∃ fv : Buf (Elt F) ((c : Thread nD τ).loc cc0_scratch0), ((c : Thread nD τ).loc cc0_scratch0) ↦{fullShare} fv)

/-- After the body: the half unchanged, the result array gathered, the scratch at some contents, the six own counters at
    zero (the send and receive cells closed; the barrier cell is the runtime's: nothing to hand back). -/
def Φ₁ (c : Dev nD) : sProp 𝕄 :=
  iprop(xPts m c fullShare ∗ (((c : Thread nD τ).loc main_v1) ↦{fullShare} gathered m c)
    ∗ (∃ fv : Buf (Elt F) ((c : Thread nD τ).loc cc0_scratch0), ((c : Thread nD τ).loc cc0_scratch0) ↦{fullShare} fv)
    ∗ localSems c ∗ semVal (sendCell c) 0 ∗ semVal (recvCell c) 0)

/-- The pipeline's proof data: no window; one point; the device owes O₀ before it and nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the body starts from, in full, with what it owes recorded against the waits W so far. -/
def bodyPre (K : Dev nD × Fin 3 → ℕ) (c : Dev nD) (W : Waits sig Unit) : sProp 𝕄 :=
  iprop(ghost m K c ∗ localSems c ∗ cred (tallyAt (barCell c) () 1) ∗ cred (tallyAt (recvCell c) () N) ∗ levAts L lv
    ∗ xPts m c fullShare ∗ (((c : Thread nD τ).loc main_v1) ↦{fullShare} o0 m c)
    ∗ (∃ fv : Buf (Elt F) ((c : Thread nD τ).loc cc0_scratch0), ((c : Thread nD τ).loc cc0_scratch0) ↦{fullShare} fv)
    ∗ owes (c : Thread nD τ) (O₀ c) W)

/-- What it ends with: the invariant after the point and nothing owed. -/
def bodyPost (c : Dev nD) : sProp 𝕄 := iprop(Φ₁ m c ∗ ∃ W' : Waits sig Unit, owes (c : Thread nD τ) 0 W')

end Cert.KernelIdeal.Gather

end
-- ==== Proof.KernelIdealTables.lean ====
/-
  The all-gather along z: the schedule read cell by cell, and the levels.

  Each of a device's three protocol cells (barrier, send, receive) has exactly one duty, in round 0: the tables below give,
  with the table entry on the left, its duties, its amount, the round's expected units, its payload, and the payloads of a
  round from which no duty has been taken. The payloads of the PEER's barrier and receive cells are also stated with the
  peer of the peer resolved, as the device that pays them meets them. Then: where a device's entry dues can be positive, and
  that its barrier cell sits below the one due it still has when it waits there.
-/
import proofs.«900670_g7700000000000671_dist_ag_v7x_xyz2x2x2_z_m16384_n1024_f32_1_alg».proof.Proof.KernelIdealProto

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells are distinct -/

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

section Tables

theorem isProto_bar (c : Dev nD) : IsProto (barCell c) := ⟨rfl, .inl rfl⟩
theorem isProto_send (c : Dev nD) : IsProto (sendCell c) := ⟨rfl, .inr (.inl rfl)⟩
theorem isProto_recv (c : Dev nD) : IsProto (recvCell c) := ⟨rfl, .inr (.inr rfl)⟩

/-! ## Duties -/

omit [FloatOps F] in
theorem duties_bar (m : (ℓ : Loc nD τ sig) → Buf (Elt F) ℓ) (c : Dev nD) : (sched (F := F) m).duties (barCell c) 0 = {()} := by dsimp only [sched]; exact if_pos ⟨rfl, isProto_bar c⟩
omit [FloatOps F] in
theorem duties_send (m : (ℓ : Loc nD τ sig) → Buf (Elt F) ℓ) (c : Dev nD) : (sched (F := F) m).duties (sendCell c) 0 = {()} := by dsimp only [sched]; exact if_pos ⟨rfl, isProto_send c⟩
omit [FloatOps F] in
theorem duties_recv (m : (ℓ : Loc nD τ sig) → Buf (Elt F) ℓ) (c : Dev nD) : (sched (F := F) m).duties (recvCell c) 0 = {()} := by dsimp only [sched]; exact if_pos ⟨rfl, isProto_recv c⟩
omit [FloatOps F] in
theorem duties_later (m : (ℓ : Loc nD τ sig) → Buf (Elt F) ℓ) (g : GSem nD τ sig) : ∀ r, 1 ≤ r → (sched (F := F) m).duties g r = ∅ :=
  fun r hr => by dsimp only [sched]; rw [if_neg fun h => by omega]

omit [FloatOps F] in
theorem mem_duties_bar (m : (ℓ : Loc nD τ sig) → Buf (Elt F) ℓ) (c : Dev nD) (d : Unit) : d ∈ (sched (F := F) m).duties (barCell c) 0 := by rw [duties_bar m c]; exact Finset.mem_singleton_self _
omit [FloatOps F] in
theorem mem_duties_send (m : (ℓ : Loc nD τ sig) → Buf (Elt F) ℓ) (c : Dev nD) (d : Unit) : d ∈ (sched (F := F) m).duties (sendCell c) 0 := by rw [duties_send m c]; exact Finset.mem_singleton_self _
omit [FloatOps F] in
theorem mem_duties_recv (m : (ℓ : Loc nD τ sig) → Buf (Elt F) ℓ) (c : Dev nD) (d : Unit) : d ∈ (sched (F := F) m).duties (recvCell c) 0 := by rw [duties_recv m c]; exact Finset.mem_singleton_self _

/-! ## Amounts and expected units -/

omit [FloatOps F] in
theorem amount_bar (m : (ℓ : Loc nD τ sig) → Buf (Elt F) ℓ) (c : Dev nD) (d : Unit) : (sched (F := F) m).amount (barCell c) 0 d = 1 := by dsimp only [sched]; exact if_pos rfl
omit [FloatOps F] in
theorem amount_send (m : (ℓ : Loc nD τ sig) → Buf (Elt F) ℓ) (c : Dev nD) (d : Unit) : (sched (F := F) m).amount (sendCell c) 0 d = N := by dsimp only [sched]; exact if_neg send_ne_bar
omit [FloatOps F] in
theorem amount_recv (m : (ℓ : Loc nD τ sig) → Buf (Elt F) ℓ) (c : Dev nD) (d : Unit) : (sched (F := F) m).amount (recvCell c) 0 d = N := by dsimp only [sched]; exact if_neg recv_ne_bar

omit [FloatOps F] in
/-- A round with one duty expects that duty's amount. -/
theorem expect_of_single {Rd : Rounds.Schedule (GSem nD τ sig) Unit 𝕄} {g : GSem nD τ sig} {r : ℕ} {d : Unit} {n : ℕ}
    (hd : Rd.duties g r = {d}) (ha : Rd.amount g r d = n) : Rd.expect g r = n := by
  unfold Schedule.expect Schedule.amountOf; rw [hd, Finset.sum_singleton, ha]
omit [FloatOps F] in
theorem expect_bar (m : (ℓ : Loc nD τ sig) → Buf (Elt F) ℓ) (c : Dev nD) : (sched (F := F) m).expect (barCell c) 0 = 1 := expect_of_single (duties_bar m c) (amount_bar m c ())
omit [FloatOps F] in
theorem expect_send (m : (ℓ : Loc nD τ sig) → Buf (Elt F) ℓ) (c : Dev nD) : (sched (F := F) m).expect (sendCell c) 0 = N := expect_of_single (duties_send m c) (amount_send m c ())
omit [FloatOps F] in
theorem expect_recv (m : (ℓ : Loc nD τ sig) → Buf (Elt F) ℓ) (c : Dev nD) : (sched (F := F) m).expect (recvCell c) 0 = N := expect_of_single (duties_recv m c) (amount_recv m c ())

/-! ## Payloads -/

omit [FloatOps F] in
theorem payload_bar (m : (ℓ : Loc nD τ sig) → Buf (Elt F) ℓ) (c : Dev nD) (d : Unit) : (sched (F := F) m).payload (barCell c) 0 d = barPay m c := by dsimp only [sched]; rw [if_pos rfl]
omit [FloatOps F] in
theorem payload_send (m : (ℓ : Loc nD τ sig) → Buf (Elt F) ℓ) (c : Dev nD) (d : Unit) : (sched (F := F) m).payload (sendCell c) 0 d = sendPay m c := by
  dsimp only [sched]; rw [if_neg send_ne_bar, if_neg send_ne_recv, if_pos rfl]
omit [FloatOps F] in
theorem payload_recv (m : (ℓ : Loc nD τ sig) → Buf (Elt F) ℓ) (c : Dev nD) (d : Unit) : (sched (F := F) m).payload (recvCell c) 0 d = recvPay m c := by
  dsimp only [sched]; rw [if_neg recv_ne_bar, if_pos rfl]

omit [FloatOps F] in
/-- The unit a device puts on its PEER's barrier cell hands the peer the device's own rows for the peer's half, as
    launched, and that the device has reached round 0 of its own receive cell. -/
theorem barPay_peer (m : (ℓ : Loc nD τ sig) → Buf (Elt F) ℓ) (c : Dev nD) : barPay m (peer c) = iprop(rowsPts c (peer c) (o0 m c) ∗ reached ER (recvCell c) 0) := by
  unfold barPay; rw [peer_peer]
omit [FloatOps F] in
/-- The landing a device makes on its PEER's receive cell hands the peer its rows for the device's half, holding it. -/
theorem recvPay_peer (m : (ℓ : Loc nD τ sig) → Buf (Elt F) ℓ) (c : Dev nD) : recvPay m (peer c)
    = rowsPts (peer c) c ((landM c).view.write (Elt F) (o0 m (peer c)) ((xM : Memref sig .tc .hbm S16384x1024 .f32).view.read (Elt F) (x0 m c)) Finset.univ) := by
  unfold recvPay landed; rw [peer_peer]
omit [FloatOps F] in
theorem payload_bar_peer (m : (ℓ : Loc nD τ sig) → Buf (Elt F) ℓ) (c : Dev nD) (d : Unit) :
    (sched (F := F) m).payload (barCell (peer c)) 0 d = iprop(rowsPts c (peer c) (o0 m c) ∗ reached ER (recvCell c) 0) := by
  rw [payload_bar, barPay_peer]
omit [FloatOps F] in
theorem payload_recv_peer (m : (ℓ : Loc nD τ sig) → Buf (Elt F) ℓ) (c : Dev nD) (d : Unit) : (sched (F := F) m).payload (recvCell (peer c)) 0 d
    = rowsPts (peer c) c ((landM c).view.write (Elt F) (o0 m (peer c)) ((xM : Memref sig .tc .hbm S16384x1024 .f32).view.read (Elt F) (x0 m c)) Finset.univ) := by
  rw [payload_recv, recvPay_peer]

/-! ## A round from which no duty has been taken -/

omit [FloatOps F] in
theorem rest_bar (m : (ℓ : Loc nD τ sig) → Buf (Elt F) ℓ) (c : Dev nD) : bigSep ((sched (F := F) m).duties (barCell c) 0 \ ∅) (fun d => (sched (F := F) m).payload (barCell c) 0 d) = barPay m c := by
  rw [Finset.sdiff_empty, duties_bar, bigSep_singleton, payload_bar]
omit [FloatOps F] in
theorem rest_send (m : (ℓ : Loc nD τ sig) → Buf (Elt F) ℓ) (c : Dev nD) : bigSep ((sched (F := F) m).duties (sendCell c) 0 \ ∅) (fun d => (sched (F := F) m).payload (sendCell c) 0 d) = sendPay m c := by
  rw [Finset.sdiff_empty, duties_send, bigSep_singleton, payload_send]
omit [FloatOps F] in
theorem rest_recv (m : (ℓ : Loc nD τ sig) → Buf (Elt F) ℓ) (c : Dev nD) : bigSep ((sched (F := F) m).duties (recvCell c) 0 \ ∅) (fun d => (sched (F := F) m).payload (recvCell c) 0 d) = recvPay m c := by
  rw [Finset.sdiff_empty, duties_recv, bigSep_singleton, payload_recv]

end Tables

/-! ## The payloads are storable -/

omit [FloatOps F] in
instance sched_payload_storable (m : (ℓ : Loc nD τ sig) → Buf (Elt F) ℓ) (g : GSem nD τ sig) (r : ℕ) (d : Unit) :
    BI.Storable (upEmb : UEmb _ 𝕄) ((sched (F := F) m).payload g r d) := by
  show BI.Storable upEmb (if g.2 = .reg barS then barPay m g.1.1 else if g.2 = .dma recvS.sem then recvPay m g.1.1
    else if g.2 = .dma sendS.sem then sendPay m g.1.1 else iprop(emp))
  unfold barPay recvPay sendPay rowsPts xPts
  (repeat' split) <;> infer_instance

/-! ## The levels -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_recv (c : Dev nD) (u : Unit) : lv (recvCell c) u = 2 := by dsimp only [lv]; rw [if_neg recv_ne_bar, if_pos rfl]

/-- A device's entry dues are positive only at its peer's receive cell and at its peer's barrier cell. -/
theorem O₀_pos {c : Dev nD} {g : GSem nD τ sig} {u : Unit} (h : 0 < O₀ c g u) : g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- At its barrier wait a device still owes its peer's receive cell the half's credit, and nothing else: a receive cell,
    above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; exact le_of_eq (lv_bar c ()))
    (fun g u hg => by
      rw [tallyAt_apply] at hg
      by_cases h : g = recvCell (peer c) ∧ u = ()
      · rw [h.1, lv_recv]; decide
      · rw [if_neg h] at hg; exact absurd hg (Nat.lt_irrefl 0))

omit [FloatOps F] in
/-- Owing nothing, a device may wait on any of its cells. -/
theorem mayWait_zero (c : Dev nD) (sm : SemLoc sig) : (emp : sProp 𝕄) ⊢ MayWait (c : Thread nD τ) sm () 0 := by
  rw [MayWait_zero]; exact BI.Entails.refl _

omit [FloatOps F] in
theorem mayWait_zero' (c : Dev nD) (sm : SemLoc sig) : (levAts L lv : sProp 𝕄) ⊢ MayWait (c : Thread nD τ) sm () 0 := by
  rw [MayWait_zero]; iintro -; iempintro

/-- info: 'Cert.KernelIdeal.Gather.mayWait_bar' depends on axioms: [propext, Classical.choice, Quot.sound] -/
#guard_msgs in #print axioms mayWait_bar

end Cert.KernelIdeal.Gather

end
-- ==== Proof.KernelIdealLaunchOf.lean ====
/-
  The all-gather along z: the launch.

  From any memory with every counter at zero, the eight devices' bodies run together to the end, and every device ends
  with its result array gathered and its half unchanged. The pieces, in the launch theorem's order: the protocol's
  ghost state at launch (every device's three cells at round 0, one duty token per cell) and how it is dealt (each
  device keeps its send token and gets its PEER's barrier and receive tokens: the duties it pays); the global step
  that allocates every cell's invariant at once (a barrier cell's invariant is opened by two devices); the launch credit
  (one unit on a device's barrier cell, the half's credit on its receive cell: what its peer owes it); the two arrays
  handed through as the unscoped rest; and the final read of both arrays against the state.
-/
import proofs.«900670_g7700000000000671_dist_ag_v7x_xyz2x2x2_z_m16384_n1024_f32_1_alg».proof.Proof.KernelIdealTables

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

theorem ownSemFacts : Pipeline.OwnSemFacts cfg0.spec osem := by decide

omit [FloatOps F] in
theorem share_eq (m : (ℓ : Loc nD τ sig) → Buf (Elt F) ℓ) (c : Dev nD) (w : Fin cfg0.W) : (dats m 0 c).share w = fullShare := w.elim0

/-! ## The protocol's cells and tokens -/

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

/-- Each cell's one duty token as minted: (device, which cell). -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def protoToks : Finset (GSem nD τ sig × ℕ × Unit) := Finset.univ.map ⟨tokOf, tokOf_injective⟩

/-- The launch element: the pipeline library's (no staging cell), the protocol's, and the unit of the counters. -/
def u₀ : UU :=
  (initOf (Pipeline.cells cfgs cellOf_inj) (Pipeline.launchToks cfgs cellOf_inj), (initOf protoCells protoToks, (1 : Counters)))

/-- The duty tokens of device c's own cells. -/
def toks (c : Dev nD) : sProp 𝕄 :=
  iprop(dutyTok ER (barCell c) 0 () ∗ dutyTok ER (sendCell c) 0 () ∗ dutyTok ER (recvCell c) 0 ())

/-- What the launch element deals device c. -/
def G (m : (ℓ : Loc nD τ sig) → Buf (Elt F) ℓ) (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem fund_proto (m : (ℓ : Loc nD τ sig) → Buf (Elt F) ℓ) : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at launch -/

omit [FloatOps F] in
/-- The kernel's own six: the local copies' four, the send cell's, the receive cell's; -/
theorem ownSems0_eq (c : Dev nD) : (Pipeline.ownSems0 (Ix := Unit) (Name := ℕ) (U := UU) (Lvl := ℕ) (Val := Elt F) (τ := τ) osem c : sProp 𝕄)
    = iprop(localSems c ∗ semVal (sendCell c) 0 ∗ semVal (recvCell c) 0) := by
  rw [Pipeline.ownSems0_eq_of_list c osem [0, 1, 2, 3, 4, 5] (by decide) (by decide)]
  unfold localSems
  refine BI.Entails.antisymm (show (iprop(semVal (lcell c 0) 0 ∗ semVal (lcell c 1) 0 ∗ semVal (lcell c 2) 0 ∗ semVal (lcell c 3) 0 ∗ semVal (sendCell c) 0 ∗ semVal (recvCell c) 0) : sProp 𝕄) ⊢ _ from ?_)
    (show _ ⊢ (iprop(semVal (lcell c 0) 0 ∗ semVal (lcell c 1) 0 ∗ semVal (lcell c 2) 0 ∗ semVal (lcell c 3) 0 ∗ semVal (sendCell c) 0 ∗ semVal (recvCell c) 0) : sProp 𝕄) from ?_)
  · iintro ⟨H0, H1, H2, H3, H4, H5⟩
    isplitl [H0 H1 H2 H3]
    · isplitl [H0]; · iexact H0
      isplitl [H1]; · iexact H1
      isplitl [H2]; · iexact H2
      iexact H3
    isplitl [H4]; · iexact H4
    iexact H5
  · iintro ⟨⟨H0, H1, H2, H3⟩, H4, H5⟩
    isplitl [H0]; · iexact H0
    isplitl [H1]; · iexact H1
    isplitl [H2]; · iexact H2
    isplitl [H3]; · iexact H3
    isplitl [H4]; · iexact H4
    iexact H5
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The global step: every cell's invariant allocated, the tokens dealt to the devices that pay them -/

omit [FloatOps F] in
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ iprop(toks c ∗ localSems c)) := by
  unfold G
  rw [ownSems0_eq, unscopedSems0_eq]
  iintro ⟨⟨Hloc, HS, HV⟩, HB, Hst, Hat, Htok⟩
  ihave Hv := (show iprop(semVal (barCell c) 0 ∗ semVal (sendCell c) 0 ∗ semVal (recvCell c) 0)
      ⊢ (bigSep Finset.univ fun k : Fin 3 => semVal (kcell (c, k)) 0 : sProp 𝕄) from by rw [bigSep_fin3]) $$ [HB HS HV]
  · isplitl [HB]; · iexact HB
    isplitl [HS] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

def records (m : (ℓ : Loc nD τ sig) → Buf (Elt F) ℓ) (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (m : (ℓ : Loc nD τ sig) → Buf (Elt F) ℓ) (K : Dev nD × Fin 3 → ℕ) : BI.Persistent (records m K) := by unfold records; infer_instance

omit [FloatOps F] in
theorem inv_at (m : (ℓ : Loc nD τ sig) → Buf (Elt F) ℓ) (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens of the duties device c PAYS: its peer's barrier duty, its peer's receive duty, its own send duty. -/
def payToks (c : Dev nD) : sProp 𝕄 :=
  iprop(dutyTok ER (barCell (peer c)) 0 () ∗ dutyTok ER (recvCell (peer c)) 0 () ∗ dutyTok ER (sendCell c) 0 ())
/-- What stays with device c alone: its positions, the tokens it pays with, its local counters. -/
def linear (c : Dev nD) : sProp 𝕄 :=
  iprop((atPos ER (barCell c) 0 ∅ 0 ∗ atPos ER (sendCell c) 0 ∅ 0 ∗ atPos ER (recvCell c) 0 ∅ 0) ∗ payToks c ∗ localSems c)

omit [FloatOps F] in
theorem ghost_intro (m : (ℓ : Loc nD τ sig) → Buf (Elt F) ℓ) (K : Dev nD × Fin 3 → ℕ) (c : Dev nD) : iprop(records m K ∗ linear c) ⊢ G' m c := by
  unfold records linear payToks G' ghost invs
  iintro ⟨⟨#HI, #HR⟩, ⟨HaB, HaS, HaV⟩, ⟨HtB, HtV, HtS⟩, Hloc⟩
  isplitr [Hloc]
  · iexists K
    isplitr
    · isplitr; · iapply (inv_at m K (c, 0)); iexact HI
      isplitr; · iapply (inv_at m K (c, 1)); iexact HI
      isplitr; · iapply (inv_at m K (c, 2)); iexact HI
      isplitr; · iapply (inv_at m K (peer c, 0)); iexact HI
      iapply (inv_at m K (peer c, 2)); iexact HI
    isplitl [HaB]; · iexact HaB
    isplitl [HaS]; · iexact HaS
    isplitl [HaV]; · iexact HaV
    isplitr; · iapply (reached_at (F := F) (peer c, 0)); iexact HR
    isplitr; · iapply (reached_at (F := F) (peer c, 2)); iexact HR
    isplitr; · iapply (reached_at (F := F) (c, 1)); iexact HR
    isplitr; · iapply (reached_at (F := F) (c, 2)); iexact HR
    isplitl [HtB]; · iexact HtB
    isplitl [HtV]; · iexact HtV
    iexact HtS
  · iexact Hloc

omit [FloatOps F] in
/-- The tokens dealt across the z axis: a barrier's and a receive cell's token go to the peer, the send token stays. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv flip (fun c : Dev nD => (dutyTok ER (barCell c) 0 () : sProp 𝕄)),
    bigSep_univ_equiv flip (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup (m : (ℓ : Loc nD τ sig) → Buf (Elt F) ℓ) :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ iprop(toks c ∗ localSems c)) : sProp 𝕄)
      ⊢ bigSep Finset.univ (G' m) := by
  rw [bigSep_sep', bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok, Hloc⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq ((bigSep_sep' Finset.univ (fun c : Dev nD => bigSep Finset.univ fun k : Fin 3 => (atPos ER (kcell (c, k)) 0 ∅ 0 : sProp 𝕄))
        (fun c : Dev nD => iprop(payToks c ∗ localSems c))).symm)).trans
      (bigSep_mono fun c _ => show _ ⊢ linear c from Entails.of_eq (by unfold linear; rw [bigSep_fin3])))
    isplitl [Hat]; · iexact Hat
    iapply (Entails.of_eq (bigSep_sep' Finset.univ (fun c : Dev nD => (payToks c : sProp 𝕄)) (fun c : Dev nD => localSems c)).symm)
    isplitl [Htk]; · iexact Htk
    iexact Hloc

omit [FloatOps F] in
/-- The global step: own AND unscoped semaphores of every device at once. -/
theorem glob (m : (ℓ : Loc nD τ sig) → Buf (Elt F) ℓ) : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what a device's peer owes it -/

omit [FloatOps F] in
theorem O₀_eq : (O₀ : Dev nD → CellTallies nD τ sig Unit)
    = fun d => tallyAt ((((peer d : Dev nD)) : Thread nD τ), SemLoc.dma recvS.sem) () N + tallyAt ((((peer d : Dev nD)) : Thread nD τ), SemLoc.reg barS) () 1 := rfl

omit [FloatOps F] in
theorem creds (c : Dev nD) :
    (Pipeline.launchCred O₀ c : sProp 𝕄) ⊢ iprop(cred (tallyAt (barCell c) () 1) ∗ cred (tallyAt (recvCell c) () N)) := by
  rw [O₀_eq, Pipeline.launchCred_add]
  iintro ⟨HN, H1⟩
  isplitl [H1]
  · iapply (Pipeline.launchCred_tallyAt (SemLoc.reg barS) peer peer peer_peer peer_peer () 1 c); iexact H1
  · iapply (Pipeline.launchCred_tallyAt (SemLoc.dma recvS.sem) peer peer peer_peer peer_peer () N c); iexact HN

/-! ## The theorem's side conditions -/

omit [FloatOps F] in
theorem xPts_eq (m : (ℓ : Loc nD τ sig) → Buf (Elt F) ℓ) (c : Dev nD) (q : PosShare TreeShare) :
    xPts m c q = (((c : Thread nD τ).loc main_arg0) ↦{q} x0 m c : sProp 𝕄) := by
  unfold xPts; rw [View.set_whole]

omit [FloatOps F] in
/-- The two arrays, which no window stages, reach the body as launched. -/
theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    isplitl [Hx]; · rw [xPts_eq]; iexact Hx
    iexact Ho
  · iempintro

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- What the launch reads at the end: the half and the result array. -/
def Yend (m : (ℓ : Loc nD τ sig) → Buf (Elt F) ℓ) (c : Dev nD) : sProp 𝕄 :=
  iprop(xPts m c fullShare ∗ (((c : Thread nD τ).loc main_v1) ↦{fullShare} gathered m c))

theorem phi1_exit (m : (ℓ : Loc nD τ sig) → Buf (Elt F) ℓ) (c : Dev nD) :
    (dats m 0 c).Φ (Fin.last cfg0.N) ⊢ iprop(Yend m c ∗ Pipeline.ownSems0 osem c ∗ Pipeline.scopedRest cfg0.spec c) := by
  rw [show (dats m 0 c).Φ (Fin.last cfg0.N) = Φ₁ m c from rfl, scopedRest0_eq, ownSems0_eq]
  unfold Φ₁ Yend
  iintro ⟨Hx, Ho, Hr, Hloc, HzS, HzV⟩
  isplitl [Hx Ho]
  · isplitl [Hx] <;> iassumption
  isplitl [Hloc HzS HzV]
  · isplitl [Hloc]; · iexact Hloc
    isplitl [HzS] <;> iassumption
  iexact Hr

theorem waits (m : (ℓ : Loc nD τ sig) → Buf (Elt F) ℓ) (c : Dev nD) : (levAts L lv : sProp 𝕄) ⊢ Pipeline.cellsWaits cfgs (dats m) () 0 c :=
  Pipeline.cellsWaits_intro cfgs (dats m) () 0 c fun w s t => w.elim0

/-! ## The body obligation from the body lemma -/

omit [FloatOps F] in
theorem bigSep_W (Φ : Fin cfg0.W → sProp 𝕄) : bigSep Finset.univ Φ = iprop(emp) := by
  rw [show (Finset.univ : Finset (Fin cfg0.W)) = ∅ from rfl]; exact BI.bigSep_empty

/-- The body lemma, as the launch takes it: from what a device's body starts with (at any names of the invariants, any
    recorded waits), its body runs to what it ends with. -/
def SoundBody (m : (ℓ : Loc nD τ sig) → Buf (Elt F) ℓ) : Prop :=
  ∀ (K : Dev nD × Fin 3 → ℕ) (c : Dev nD) (W : Waits sig Unit) (Kt : PUnit → sProp 𝕄),
    iprop(bodyPre m K c W ∗ (bodyPost m c -∗ Kt ⟨⟩)) ⊢ wp frame (wpE (defs₀ (F := F)) 𝒱₀ c none) Set.univ (bodyAt0 t₀) Kt

set_option maxRecDepth 4000 in
/-- The library's body obligation on device c. -/
theorem body_obligation (m : (ℓ : Loc nD τ sig) → Buf (Elt F) ℓ) (hsound : SoundBody m) (c : Dev nD) :
    BodyObligation (dats (F := F) m 0 c) (defs₀ (F := F)) 𝒱₀ () Set.univ := fun t => by
  rw [fin_N t]
  rw [bigSep_W, bigSep_W]
  show iprop(Φ₀ m c ∗ (dats m 0 c).owesAt () t₀.castSucc ∗ emp)
    ⊢ wp frame (wpE (defs₀ (F := F)) 𝒱₀ c none) Set.univ (bodyAt0 t₀) (fun _ => iprop(Φ₁ m c ∗ (dats m 0 c).owesAt () t₀.succ ∗ emp))
  unfold Φ₀ start G'
  iintro ⟨⟨⟨⟨⟨%K, Hg⟩, Hloc⟩, H1, HN, Hlev, Hx, Ho⟩, Hscr⟩, ⟨%W, -, HO⟩, -⟩
  iapply (hsound K c W fun _ => iprop(Φ₁ m c ∗ (dats m 0 c).owesAt () t₀.succ ∗ emp))
  unfold bodyPre bodyPost
  isplitr []
  · isplitl [Hg]; · iexact Hg
    isplitl [Hloc]; · iexact Hloc
    isplitl [H1]; · iexact H1
    isplitl [HN]; · iexact HN
    isplitl [Hlev]; · iexact Hlev
    isplitl [Hx]; · iexact Hx
    isplitl [Ho]; · iexact Ho
    isplitl [Hscr]; · iexact Hscr
    iexact HO
  · iintro ⟨HΦ, %W', HO'⟩
    isplitl [HΦ]; · iexact HΦ
    isplitl [HO']
    · iexists W'
      isplitr; · ipureintro; exact fun _ _ => Or.inl trivial
      iexact HO'
    · iempintro

/-! ## The run -/

set_option maxRecDepth 8000 in
/-- At the compiled mesh of eight devices, for any float values, from any memory with zero counters: every weakly fair
    execution of @main (the eight kernels shaking hands pairwise across the z axis, each then sending its half to its peer
    and copying it into its own result) terminates, and every final state has each device's result array gathered and
    its half unchanged. -/
theorem run_main_of (m : (ℓ : Loc nD τ sig) → Buf (Elt F) ℓ) (ρ : Dev nD → PrngReg) (hsound : SoundBody m) :
    θ_run defs (onTc (τ := τ) (main (F := F))) ⟨m, fun _ => 0, ρ⟩
      (fun r => ∀ c : Dev nD, r.2.mem ((c : Thread nD τ).loc main_v1) = gathered m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hsound) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb embR _ _) $$ HX
      icases HX' with ⟨HR, -⟩
      imod (fund_proto m) $$ HR with HG
      imodintro
      isplitl [HP] <;> iassumption)
    (hglob := glob m)
    (hA := fun _ w => w.elim0) (hpf := fun _ k => k.elim0)
    (X := start m) (Y := Yend m) (Z := fun _ => iprop(emp))
    (hX := start_intro m ρ) (hin := phi0_intro m) (hout := phi1_exit m)
    (QY := fun c s => s.mem ((c : Thread nD τ).loc main_v1) = gathered m c
      ∧ s.mem ((c : Thread nD τ).loc main_arg0) = m ((c : Thread nD τ).loc main_arg0))
    (hY := fun c s' => by
      unfold Yend
      rw [xPts_eq]
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.KernelIdeal.Gather.run_main_of' depends on axioms: [propext, Classical.choice, Quot.sound] -/
#guard_msgs in #print axioms run_main_of

end Cert.KernelIdeal.Gather

end
-- ==== Proof.KernelIdealPieces.lean ====
/-
  The all-gather along the mesh's z axis: the pieces a device holds its result array in.

  A device's result array (32768 rows of 1024) is held in nine pieces: the 16384 rows where the peer's half lands, and
  the eight 2048-row chunks of the rows where its own half goes. Stated here: the pieces partition the array (the two
  halves' rows; a half's rows into its eight chunks), what the gathered array holds on each piece, and that the nine
  pieces, each holding what the gathered array holds there, are the gathered array.
-/
import proofs.«900670_g7700000000000671_dist_ag_v7x_xyz2x2x2_z_m16384_n1024_f32_1_alg».proof.Proof.KernelIdealProto

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The chunks' points-to; the source chunks -/

/-- Chunk r of device c's own rows of its result array, at contents f. -/
def chunkPts (c : Dev nD) (r : Fin 8) (f : Buf (Elt F) ((c : Thread nD τ).loc main_v1)) : sProp 𝕄 :=
  (chunkM c r).view.loc (c : Thread nD τ) ↦[(chunkM c r).view.set]{fullShare} f

theorem rowsPts_eq (c d : Dev nD) (f : Buf (Elt F) ((c : Thread nD τ).loc main_v1)) :
    rowsPts c d f = ((((c : Thread nD τ).loc main_v1) ↦[(landM d).view.set]{fullShare} f : sProp 𝕄)) := rfl

theorem chunkPts_eq (c : Dev nD) (r : Fin 8) (f : Buf (Elt F) ((c : Thread nD τ).loc main_v1)) :
    chunkPts c r f = ((((c : Thread nD τ).loc main_v1) ↦[(chunkM c r).view.set]{fullShare} f : sProp 𝕄)) := rfl

/-- Chunk r of a half lies inside the half. -/
theorem srcInb (r : Fin 8) : ∀ a, (![2048 * r.val, 0] : Fin 2 → ℕ) a + S2048x1024.size a ≤ S16384x1024.size a := by
  revert r; decide

/-- Chunk r (2048 rows) of a device's half, as the kernel slices it. -/
abbrev srcM (r : Fin 8) : Memref sig .tc .hbm S2048x1024 .f32 :=
  (xM).slice (Rect.unit (s := S16384x1024) ![2048 * r.val, 0] S2048x1024.size (srcInb r)) (fun _ => rfl)

/-! ### The pieces as the kernel spells them: each literal offset is the general chunk at its number -/
example : srcM 0 = (xM).slice (Rect.unit (s := S16384x1024) ![0, 0] S2048x1024.size inb_S16384x1024_S2048x1024_0_0) (fun _ => rfl) := rfl
example : srcM 1 = (xM).slice (Rect.unit (s := S16384x1024) ![2048, 0] S2048x1024.size inb_S16384x1024_S2048x1024_2048_0) (fun _ => rfl) := rfl
example : srcM 2 = (xM).slice (Rect.unit (s := S16384x1024) ![4096, 0] S2048x1024.size inb_S16384x1024_S2048x1024_4096_0) (fun _ => rfl) := rfl
example : srcM 3 = (xM).slice (Rect.unit (s := S16384x1024) ![6144, 0] S2048x1024.size inb_S16384x1024_S2048x1024_6144_0) (fun _ => rfl) := rfl
example : srcM 4 = (xM).slice (Rect.unit (s := S16384x1024) ![8192, 0] S2048x1024.size inb_S16384x1024_S2048x1024_8192_0) (fun _ => rfl) := rfl
example : srcM 5 = (xM).slice (Rect.unit (s := S16384x1024) ![10240, 0] S2048x1024.size inb_S16384x1024_S2048x1024_10240_0) (fun _ => rfl) := rfl
example : srcM 6 = (xM).slice (Rect.unit (s := S16384x1024) ![12288, 0] S2048x1024.size inb_S16384x1024_S2048x1024_12288_0) (fun _ => rfl) := rfl
example : srcM 7 = (xM).slice (Rect.unit (s := S16384x1024) ![14336, 0] S2048x1024.size inb_S16384x1024_S2048x1024_14336_0) (fun _ => rfl) := rfl
example (c : Dev nD) : chunkM c 0 = (oM).slice (Rect.unit (s := S32768x1024) (k0_off2 c 0#32) S2048x1024.size (k0_off2_inb c 0)) (fun _ => rfl) := rfl
example (c : Dev nD) : chunkM c 1 = (oM).slice (Rect.unit (s := S32768x1024) (k0_off2 c 2048#32) S2048x1024.size (k0_off2_inb c 1)) (fun _ => rfl) := rfl
example (c : Dev nD) : chunkM c 2 = (oM).slice (Rect.unit (s := S32768x1024) (k0_off2 c 4096#32) S2048x1024.size (k0_off2_inb c 2)) (fun _ => rfl) := rfl
example (c : Dev nD) : chunkM c 3 = (oM).slice (Rect.unit (s := S32768x1024) (k0_off2 c 6144#32) S2048x1024.size (k0_off2_inb c 3)) (fun _ => rfl) := rfl
example (c : Dev nD) : chunkM c 4 = (oM).slice (Rect.unit (s := S32768x1024) (k0_off2 c 8192#32) S2048x1024.size (k0_off2_inb c 4)) (fun _ => rfl) := rfl
example (c : Dev nD) : chunkM c 5 = (oM).slice (Rect.unit (s := S32768x1024) (k0_off2 c 10240#32) S2048x1024.size (k0_off2_inb c 5)) (fun _ => rfl) := rfl
example (c : Dev nD) : chunkM c 6 = (oM).slice (Rect.unit (s := S32768x1024) (k0_off2 c 12288#32) S2048x1024.size (k0_off2_inb c 6)) (fun _ => rfl) := rfl
example (c : Dev nD) : chunkM c 7 = (oM).slice (Rect.unit (s := S32768x1024) (k0_off2 c 14336#32) S2048x1024.size (k0_off2_inb c 7)) (fun _ => rfl) := rfl

/-! ## Which rows a piece is -/

/-- The rows of device d's half: [16384 (d % 2), 16384 (d % 2) + 16384). -/
theorem mem_land (d : Dev nD) (i : S32768x1024.Idx) :
    i ∈ (landM d).view.set ↔ 16384 * (d.val % 2) ≤ (i 0).val ∧ (i 0).val < 16384 * (d.val % 2) + 16384 := by
  have hs : (landM d).view.set = (Rect.unit (s := S32768x1024) (k0_off1 d) S16384x1024.size (k0_off1_inb d)).set :=
    View.set_slice_whole main_v1 _
  have h1 : (i 1).val < 1024 := (i 1).isLt
  rw [hs, Rect.mem_set_unit, k0_off1_eq d, Fin.forall_fin_two]
  constructor
  · rintro ⟨⟨a, b⟩, -⟩; exact ⟨a, b⟩
  · rintro ⟨a, b⟩; exact ⟨⟨a, b⟩, Nat.zero_le _, (Nat.zero_add _).symm ▸ h1⟩

/-- The rows of chunk r of device d's half: [16384 (d % 2) + 2048 r, … + 2048). -/
theorem mem_chunk (d : Dev nD) (r : Fin 8) (i : S32768x1024.Idx) :
    i ∈ (chunkM d r).view.set ↔ 16384 * (d.val % 2) + 2048 * r.val ≤ (i 0).val ∧ (i 0).val < 16384 * (d.val % 2) + 2048 * r.val + 2048 := by
  have hs : (chunkM d r).view.set
      = (Rect.unit (s := S32768x1024) (k0_off2 d (BitVec.ofNat 32 (2048 * r.val))) S2048x1024.size (k0_off2_inb d r)).set :=
    View.set_slice_whole main_v1 _
  have h1 : (i 1).val < 1024 := (i 1).isLt
  rw [hs, Rect.mem_set_unit, k0_off2_eq d r, Fin.forall_fin_two]
  constructor
  · rintro ⟨⟨a, b⟩, -⟩; exact ⟨a, b⟩
  · rintro ⟨a, b⟩; exact ⟨⟨a, b⟩, Nat.zero_le _, (Nat.zero_add _).symm ▸ h1⟩

/-- The two halves' rows share nothing, -/
theorem land_disjoint (c : Dev nD) : Disjoint (landM (peer c)).view.set (landM c).view.set := by
  rw [Finset.disjoint_left]
  intro i h1 h2
  have a := (mem_land (peer c) i).mp h1
  have b := (mem_land c i).mp h2
  have := peer_z c
  omega

/-- and are the whole array. -/
theorem land_cover (c : Dev nD) : (landM (peer c)).view.set ∪ (landM c).view.set = Finset.univ := by
  ext i
  simp only [Finset.mem_union, Finset.mem_univ, iff_true]
  have h0 : ((i : S32768x1024.Idx) 0).val < 32768 := ((i : S32768x1024.Idx) 0).isLt
  have := peer_z c
  by_cases h : 16384 * (c.val % 2) ≤ ((i : S32768x1024.Idx) 0).val ∧ ((i : S32768x1024.Idx) 0).val < 16384 * (c.val % 2) + 16384
  · exact Or.inr ((mem_land c i).mpr h)
  · exact Or.inl ((mem_land (peer c) i).mpr (by omega))

/-- A half's chunks share nothing, -/
theorem chunk_disjoint (c : Dev nD) (r r' : Fin 8) (h : r ≠ r') : Disjoint (chunkM c r).view.set (chunkM c r').view.set := by
  rw [Finset.disjoint_left]
  intro i h1 h2
  have a := (mem_chunk c r i).mp h1
  have b := (mem_chunk c r' i).mp h2
  exact h (Fin.ext (by omega))

/-- and are the half. -/
theorem chunk_cover (c : Dev nD) :
    (Finset.univ.biUnion fun r : Fin 8 => ((chunkM c r).view.set : Finset (Idx ((c : Thread nD τ).loc main_v1)))) = (landM c).view.set := by
  ext i
  rw [Finset.mem_biUnion]
  constructor
  · rintro ⟨r, -, hr⟩
    have a := (mem_chunk c r i).mp hr
    have := r.isLt
    exact (mem_land c i).mpr (by omega)
  · intro hi
    have a := (mem_land c i).mp hi
    obtain ⟨q, hq8, hq⟩ : ∃ q : ℕ, q < 8 ∧ (16384 * (c.val % 2) + 2048 * q ≤ ((i : S32768x1024.Idx) 0).val
        ∧ ((i : S32768x1024.Idx) 0).val < 16384 * (c.val % 2) + 2048 * q + 2048) :=
      ⟨(((i : S32768x1024.Idx) 0).val - 16384 * (c.val % 2)) / 2048, by omega, by omega, by omega⟩
    exact ⟨⟨q, hq8⟩, Finset.mem_univ _, (mem_chunk c ⟨q, hq8⟩ i).mpr hq⟩

/-! ## The array as its two halves' rows; a half's rows as its chunks -/

/-- The result array held whole is the rows where the peer's half lands and the rows where the device's own half
    goes. -/
theorem split_rows (c : Dev nD) (f : Buf (Elt F) ((c : Thread nD τ).loc main_v1)) :
    ((((c : Thread nD τ).loc main_v1) ↦{fullShare} f : sProp 𝕄)) = iprop(rowsPts c (peer c) f ∗ rowsPts c c f) := by
  rw [rowsPts_eq, rowsPts_eq]
  have hu : ((((c : Thread nD τ).loc main_v1) ↦[(landM (peer c)).view.set ∪ (landM c).view.set]{fullShare} f : sProp 𝕄))
      ⊣⊢ iprop(((((c : Thread nD τ).loc main_v1) ↦[(landM (peer c)).view.set]{fullShare} f))
        ∗ (((c : Thread nD τ).loc main_v1) ↦[(landM c).view.set]{fullShare} f)) := pointsTo_union (land_disjoint c)
  rw [land_cover c] at hu
  exact BI.equiv_iff.mp ⟨hu.1, hu.2⟩

/-- A family over eight, one after the other. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide,
    bigSep_insert (by decide), bigSep_insert (by decide), bigSep_insert (by decide), bigSep_insert (by decide),
    bigSep_insert (by decide), bigSep_insert (by decide), bigSep_insert (by decide), bigSep_singleton]
  rfl

/-- The rows where the device's own half goes are that half's eight chunks, -/
theorem split_chunks_big (c : Dev nD) (f : Buf (Elt F) ((c : Thread nD τ).loc main_v1)) :
    (rowsPts c c f : sProp 𝕄) = bigSep Finset.univ fun r : Fin 8 => chunkPts c r f := by
  have hb : ((((c : Thread nD τ).loc main_v1) ↦[Finset.univ.biUnion fun r : Fin 8 =>
        ((chunkM c r).view.set : Finset (Idx ((c : Thread nD τ).loc main_v1)))]{fullShare} f : sProp 𝕄))
      = bigSep Finset.univ fun r : Fin 8 => (((c : Thread nD τ).loc main_v1) ↦[(chunkM c r).view.set]{fullShare} f) :=
    pointsTo_biUnion Finset.univ _ (fun r _ r' _ h => chunk_disjoint c r r' h)
  rw [rowsPts_eq, ← chunk_cover c, hb]
  rfl

/-- one after the other. -/
theorem split_chunks (c : Dev nD) (f : Buf (Elt F) ((c : Thread nD τ).loc main_v1)) :
    (rowsPts c c f : sProp 𝕄) = iprop(chunkPts c 0 f ∗ chunkPts c 1 f ∗ chunkPts c 2 f ∗ chunkPts c 3 f ∗ chunkPts c 4 f ∗ chunkPts c 5 f
      ∗ chunkPts c 6 f ∗ chunkPts c 7 f) :=
  (split_chunks_big c f).trans (bigSep_fin8 fun r : Fin 8 => chunkPts c r f)

/-- The result array held whole is the nine pieces. -/
theorem split_out (c : Dev nD) (f : Buf (Elt F) ((c : Thread nD τ).loc main_v1)) :
    ((((c : Thread nD τ).loc main_v1) ↦{fullShare} f : sProp 𝕄)) = iprop(rowsPts c (peer c) f ∗ chunkPts c 0 f ∗ chunkPts c 1 f ∗ chunkPts c 2 f
      ∗ chunkPts c 3 f ∗ chunkPts c 4 f ∗ chunkPts c 5 f ∗ chunkPts c 6 f ∗ chunkPts c 7 f) := by
  rw [split_rows c f, split_chunks c f]

/-! ## What the gathered array holds on each piece -/

variable (m : (ℓ : Loc nD τ sig) → Buf (Elt F) ℓ)

/-- Where chunk r's element y sits in the result array: in the device's own half's rows, at the place of the half's
    chunk r's element y. -/
theorem chunk_emb (c : Dev nD) (r : Fin 8) (y : S2048x1024.Idx) :
    (chunkM c r).view.emb y = (landM c).view.emb ((srcM r).view.emb y) := by
  have key : ∀ a : Fin 2, k0_off2 c (BitVec.ofNat 32 (2048 * r.val)) a + 1 * (y a).val
      = k0_off1 c a + 1 * ((![2048 * r.val, 0] : Fin 2 → ℕ) a + 1 * (y a).val) := by
    rw [k0_off2_eq c r, k0_off1_eq c, Fin.forall_fin_two]
    constructor
    · show 16384 * (c.val % 2) + 2048 * r.val + 1 * (y 0).val = 16384 * (c.val % 2) + 1 * (2048 * r.val + 1 * (y 0).val)
      omega
    · show 0 + 1 * (y 1).val = 0 + 1 * (0 + 1 * (y 1).val)
      omega
  funext a
  exact Fin.ext (key a)

/-- On chunk r of its own half's rows the gathered array holds chunk r of the device's half. -/
theorem gathered_chunk (c : Dev nD) (r : Fin 8) (y : S2048x1024.Idx) :
    gathered m c ((chunkM c r).view.emb y) = (srcM r).view.read (Elt F) (x0 m c) y := by
  have hne : (chunkM c r).view.emb y ∉ (landM (peer c)).view.setOn Finset.univ := by
    rw [View.setOn_univ]
    intro hm
    have h1 := (mem_land (peer c) _).mp hm
    have h2 := (mem_chunk c r _).mp ((chunkM c r).view.emb_mem_set y)
    have := peer_z c
    have := r.isLt
    omega
  unfold gathered
  rw [View.write_of_not_mem _ _ _ hne, chunk_emb, View.write_emb_of_mem _ _ (Finset.mem_univ _), View.read_apply, View.read_apply]
  simp only [cast_cast, cast_eq]
  rfl

/-- On the rows where the peer's half lands the gathered array holds what the landing left. -/
theorem gathered_landed (c : Dev nD) (i : Idx ((c : Thread nD τ).loc main_v1)) (hi : i ∈ (landM (peer c)).view.set) :
    gathered m c i = landed m c i := by
  obtain ⟨y, -, rfl⟩ := Finset.mem_map.mp hi
  unfold gathered landed
  rw [View.write_emb_of_mem _ _ (Finset.mem_univ y), View.write_emb_of_mem _ _ (Finset.mem_univ y)]

/-! ## The nine pieces, each holding what the gathered array holds there, are the gathered array -/

theorem join_out (c : Dev nD) (g : Fin 8 → Buf (Elt F) ((c : Thread nD τ).loc main_v1))
    (h : ∀ r, ∀ i ∈ (chunkM c r).view.set, g r i = gathered m c i) :
    iprop(rowsPts c (peer c) (landed m c) ∗ chunkPts c 0 (g 0) ∗ chunkPts c 1 (g 1) ∗ chunkPts c 2 (g 2) ∗ chunkPts c 3 (g 3)
      ∗ chunkPts c 4 (g 4) ∗ chunkPts c 5 (g 5) ∗ chunkPts c 6 (g 6) ∗ chunkPts c 7 (g 7))
      ⊢ ((((c : Thread nD τ).loc main_v1) ↦{fullShare} gathered m c : sProp 𝕄)) := by
  have hc : ∀ r, (chunkPts c r (g r) : sProp 𝕄) = chunkPts c r (gathered m c) := fun r => by
    rw [chunkPts_eq, chunkPts_eq]; exact pointsTo_congr (h r)
  have hl : (rowsPts c (peer c) (landed m c) : sProp 𝕄) = rowsPts c (peer c) (gathered m c) := by
    rw [rowsPts_eq, rowsPts_eq]; exact pointsTo_congr fun i hi => (gathered_landed m c i hi).symm
  rw [hc 0, hc 1, hc 2, hc 3, hc 4, hc 5, hc 6, hc 7, hl, ← split_chunks c (gathered m c), ← split_rows c (gathered m c)]

/-- The same, the chunks' contents compared at the chunks' own indices. -/
theorem join_out' (c : Dev nD) (g : Fin 8 → Buf (Elt F) ((c : Thread nD τ).loc main_v1))
    (h : ∀ (r : Fin 8) (y : S2048x1024.Idx), g r ((chunkM c r).view.emb y) = gathered m c ((chunkM c r).view.emb y)) :
    iprop(rowsPts c (peer c) (landed m c) ∗ chunkPts c 0 (g 0) ∗ chunkPts c 1 (g 1) ∗ chunkPts c 2 (g 2) ∗ chunkPts c 3 (g 3)
      ∗ chunkPts c 4 (g 4) ∗ chunkPts c 5 (g 5) ∗ chunkPts c 6 (g 6) ∗ chunkPts c 7 (g 7))
      ⊢ ((((c : Thread nD τ).loc main_v1) ↦{fullShare} gathered m c : sProp 𝕄)) :=
  join_out m c g fun r i hi => by
    obtain ⟨y, -, rfl⟩ := Finset.mem_map.mp hi
    exact h r y

/-- info: 'Cert.KernelIdeal.Gather.join_out'' depends on axioms: [propext, Classical.choice, Quot.sound] -/
#guard_msgs in #print axioms join_out'

end Cert.KernelIdeal.Gather

end
-- ==== Proof.KernelIdealBody.lean ====
/-
  The all-gather along z: one device's body, run once at a symbolic device.

  From what the device starts with — its protocol ghost state, the four local counters at zero, its credit for the peer's
  barrier unit and for the peer's landing, its half and its result array as launched, the staging scratch — the body:
  puts one unit on the peer's barrier cell, handing over the rows of its own result array where the peer's half will land
  (as launched) and that it has reached round 0 of its receive cell; waits for the peer's unit, which hands it the same of
  the peer; sends its half (a right half-share of it, so that the chunk copies can read the half meanwhile) into those rows
  of the peer's array, which pays the peer's receive cell with those rows at the half written over the launched contents;
  copies its half chunk by chunk, through the two staging slots, into the eight chunks of its own rows; and waits for its
  send cell (the share comes back) and its receive cell (its rows for the peer's half come back, holding it).

  For that the result array is held in nine pieces (the peer's rows, and the eight chunks each by exactly its own
  elements); at the end chunk r holds the launched array with chunk r of the half written, the nine pieces are the array
  gathered, the two half-shares are the half again, and the send and receive cells, their one round consumed, are closed.
-/
import proofs.«900670_g7700000000000671_dist_ag_v7x_xyz2x2x2_z_m16384_n1024_f32_1_alg».proof.Proof.KernelIdealTables
import proofs.«900670_g7700000000000671_dist_ag_v7x_xyz2x2x2_z_m16384_n1024_f32_1_alg».proof.Proof.KernelIdealPieces

noncomputable section

namespace Cert.KernelIdeal.Gather

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- the kernel's two device chains name the peer: the addressed signal and transfer are read at the peer along these
attribute [local sl_canon] dev1_eq dev2_eq

/-! ## The payloads, each spelt as the points-to it is (with the peer of the peer resolved where the paying device meets it) -/

section Pts
variable (c : Dev nD) (d : Unit)
omit [FloatOps F] in
theorem payload_bar_peer_pts :
    (sched (F := F) m).payload (barCell (peer c)) 0 d
      = iprop(((landM (peer c)).view.loc (c : Thread nD τ) ↦[(landM (peer c)).view.set]{fullShare} o0 m c) ∗ reached ER (recvCell c) 0) :=
  payload_bar_peer m c d
omit [FloatOps F] in
theorem payload_recv_peer_pts :
    (sched (F := F) m).payload (recvCell (peer c)) 0 d
      = ((landM c).view.loc (peer c : Thread nD τ) ↦[(landM c).view.set]{fullShare}
          ((landM c).view.write (Elt F) (o0 m (peer c)) ((xM : Memref sig .tc .hbm S16384x1024 .f32).view.read (Elt F) (x0 m c)) Finset.univ) : sProp 𝕄) :=
  payload_recv_peer m c d
omit [FloatOps F] in
theorem payload_bar_pts :
    (sched (F := F) m).payload (barCell c) 0 d
      = iprop(((landM c).view.loc (peer c : Thread nD τ) ↦[(landM c).view.set]{fullShare} o0 m (peer c)) ∗ reached ER (recvCell (peer c)) 0) :=
  payload_bar m c d
omit [FloatOps F] in
theorem payload_recv_pts :
    (sched (F := F) m).payload (recvCell c) 0 d
      = ((landM (peer c)).view.loc (c : Thread nD τ) ↦[(landM (peer c)).view.set]{fullShare} landed m c : sProp 𝕄) :=
  payload_recv m c d
omit [FloatOps F] in
theorem payload_send_pts :
    (sched (F := F) m).payload (sendCell c) 0 d
      = ((xM : Memref sig .tc .hbm S16384x1024 .f32).view.loc (c : Thread nD τ) ↦[(xM : Memref sig .tc .hbm S16384x1024 .f32).view.set]{fullShare.right} x0 m c : sProp 𝕄) :=
  payload_send m c d
end Pts

omit [FloatOps F] in
theorem vPts_eq (c : Dev nD) (fv : Buf (Elt F) ((c : Thread nD τ).loc cc0_scratch0)) :
    ((vM : Memref sig .tc .vmem S2x2048x1024 .f32).view.loc (c : Thread nD τ) ↦[(vM : Memref sig .tc .vmem S2x2048x1024 .f32).view.set]{fullShare} fv : sProp 𝕄)
      = (((c : Thread nD τ).loc cc0_scratch0) ↦{fullShare} fv) := by rw [View.set_whole]

omit [FloatOps F] in
/-- A chunk filled by one copy out of a staging slot that one copy had filled from Q holds Q, over what it held. -/
theorem piece_eq (cv : View sig .tc .hbm S2048x1024 .f32) (sv : View sig .tc .vmem S2048x1024 .f32) (f0 : cv.ty.Contents (Elt F))
    (pv : sv.ty.Contents (Elt F)) (Q : S2048x1024.Idx → Elt F .f32) :
    cv.writes (Elt F) f0 [⟨Rect.whole S2048x1024, ReadAs.same.apply (sv.read (Elt F) (sv.write (Elt F) pv (ReadAs.same.apply Q) Finset.univ))⟩]
      = cv.write (Elt F) f0 Q Finset.univ := by
  rw [ReadAs.apply_same, ReadAs.apply_same, View.read_write_univ]
  exact (View.write_univ_eq_writes_whole cv f0 [] Q).symm

/-- What chunk r of a device's own half holds at the end: its result array as launched with chunk r of its half written. -/
def ownChunk (c : Dev nD) (r : Fin 8) : Buf (Elt F) ((c : Thread nD τ).loc main_v1) :=
  (chunkM c r).view.write (Elt F) (o0 m c) ((srcM r).view.read (Elt F) (x0 m c)) Finset.univ

theorem ownChunk_gathered (c : Dev nD) (r : Fin 8) (y : S2048x1024.Idx) :
    ownChunk m c r ((chunkM c r).view.emb y) = gathered m c ((chunkM c r).view.emb y) := by
  rw [gathered_chunk m c r y]
  exact View.write_emb_of_mem _ _ (Finset.mem_univ y)

/-- The nine pieces of a device's result array at the end of its body — the peer's rows holding the peer's half, each of
    its own eight chunks holding that chunk of its own half — are the array gathered. -/
theorem join8 (c : Dev nD) :
    iprop(((landM (peer c)).view.loc (c : Thread nD τ) ↦[(landM (peer c)).view.set]{fullShare} landed m c)
        ∗ ((chunkM c 0).view.loc (c : Thread nD τ) ↦[(chunkM c 0).view.set]{fullShare}
          View.write (Elt F) (chunkM c 0).view (o0 m c) (View.read (Elt F) ((xM).slice (Rect.unit (s := S16384x1024) ![0, 0] S2048x1024.size Facts₀.inb_S16384x1024_S2048x1024_0_0) (fun _ => rfl)).view (x0 m c)) Finset.univ)
        ∗ ((chunkM c 1).view.loc (c : Thread nD τ) ↦[(chunkM c 1).view.set]{fullShare}
          View.write (Elt F) (chunkM c 1).view (o0 m c) (View.read (Elt F) ((xM).slice (Rect.unit (s := S16384x1024) ![2048, 0] S2048x1024.size Facts₀.inb_S16384x1024_S2048x1024_2048_0) (fun _ => rfl)).view (x0 m c)) Finset.univ)
        ∗ ((chunkM c 2).view.loc (c : Thread nD τ) ↦[(chunkM c 2).view.set]{fullShare}
          View.write (Elt F) (chunkM c 2).view (o0 m c) (View.read (Elt F) ((xM).slice (Rect.unit (s := S16384x1024) ![4096, 0] S2048x1024.size Facts₀.inb_S16384x1024_S2048x1024_4096_0) (fun _ => rfl)).view (x0 m c)) Finset.univ)
        ∗ ((chunkM c 3).view.loc (c : Thread nD τ) ↦[(chunkM c 3).view.set]{fullShare}
          View.write (Elt F) (chunkM c 3).view (o0 m c) (View.read (Elt F) ((xM).slice (Rect.unit (s := S16384x1024) ![6144, 0] S2048x1024.size Facts₀.inb_S16384x1024_S2048x1024_6144_0) (fun _ => rfl)).view (x0 m c)) Finset.univ)
        ∗ ((chunkM c 4).view.loc (c : Thread nD τ) ↦[(chunkM c 4).view.set]{fullShare}
          View.write (Elt F) (chunkM c 4).view (o0 m c) (View.read (Elt F) ((xM).slice (Rect.unit (s := S16384x1024) ![8192, 0] S2048x1024.size Facts₀.inb_S16384x1024_S2048x1024_8192_0) (fun _ => rfl)).view (x0 m c)) Finset.univ)
        ∗ ((chunkM c 5).view.loc (c : Thread nD τ) ↦[(chunkM c 5).view.set]{fullShare}
          View.write (Elt F) (chunkM c 5).view (o0 m c) (View.read (Elt F) ((xM).slice (Rect.unit (s := S16384x1024) ![10240, 0] S2048x1024.size Facts₀.inb_S16384x1024_S2048x1024_10240_0) (fun _ => rfl)).view (x0 m c)) Finset.univ)
        ∗ ((chunkM c 6).view.loc (c : Thread nD τ) ↦[(chunkM c 6).view.set]{fullShare}
          View.write (Elt F) (chunkM c 6).view (o0 m c) (View.read (Elt F) ((xM).slice (Rect.unit (s := S16384x1024) ![12288, 0] S2048x1024.size Facts₀.inb_S16384x1024_S2048x1024_12288_0) (fun _ => rfl)).view (x0 m c)) Finset.univ)
        ∗ ((chunkM c 7).view.loc (c : Thread nD τ) ↦[(chunkM c 7).view.set]{fullShare}
          View.write (Elt F) (chunkM c 7).view (o0 m c) (View.read (Elt F) ((xM).slice (Rect.unit (s := S16384x1024) ![14336, 0] S2048x1024.size Facts₀.inb_S16384x1024_S2048x1024_14336_0) (fun _ => rfl)).view (x0 m c)) Finset.univ))
      ⊢ ((((c : Thread nD τ).loc main_v1) ↦{fullShare} gathered m c) : sProp 𝕄) :=
  join_out' (F := F) m c (ownChunk m c) (ownChunk_gathered m c)

/-! ## The body -/

attribute [local sl_rounds] duties_bar duties_send duties_recv amount_bar amount_send amount_recv expect_bar expect_send expect_recv
  mem_duties_bar mem_duties_send mem_duties_recv payload_bar_pts payload_recv_pts payload_send_pts
attribute [local sl_rounds high] payload_bar_peer_pts payload_recv_peer_pts

set_option maxHeartbeats 4000000 in
/-- One device's body from bodyPre to bodyPost: the signal, the barrier wait, the transfer, the sixteen chunk copies with
    their waits and the two closing waits, each by its rule in program order; then the pieces' contents are read and
    joined, the two half-shares joined, and the two cells closed. -/
theorem sound_body (K : Dev nD × Fin 3 → ℕ) (c : Dev nD) (W : Waits sig Unit) (Kt : PUnit → sProp 𝕄) :
    iprop(bodyPre m K c W ∗ (bodyPost m c -∗ Kt ⟨⟩))
      ⊢ wp frame (wpE (defs₀ (F := F)) 𝒱₀ c none) Set.univ (bodyAt0 (F := F) t₀) Kt := by
  show _ ⊢ wp frame _ Set.univ (cc0_body (Memref.whole main_arg0) (Memref.isWhole_whole _) (Memref.whole main_v1) (Memref.isWhole_whole _) (Memref.whole cc0_scratch0) (Memref.isWhole_whole _) cc0_scratch1 cc0_scratch2 cc0_scratch3 cc0_scratch4) Kt
  sl_unfold [cc0_body]
  unfold bodyPre ghost invs localSems
  iintro ⟨⟨⟨⟨#HIbar, #HIsnd, #HIrcv, #HIbarP, #HIrcvP⟩, HatB, HatS, HatV, #HrBP, #HrVP, #HrS, #HrV, HtBP, HtVP, HtS⟩, ⟨Hl0, Hl1, Hl2, Hl3⟩, HcB, HcV, #Hlev, Hx, Ho, ⟨%fv, Hv⟩, HO⟩, Hk⟩
  -- the result array in nine pieces: the peer's rows and the eight chunks of the device's own rows
  ihave Ho' := (Entails.of_eq (split_out c (o0 m c))) $$ Ho
  icases Ho' with ⟨Hrows, Hc0, Hc1, Hc2, Hc3, Hc4, Hc5, Hc6, Hc7⟩
  -- the half in two half-shares: the right one travels with the transfer, the left one feeds the chunk copies
  unfold xPts
  ihave Hx' := (pointsTo_share (PosShare.mem_left_op_right fullShare)).1 $$ Hx
  icases Hx' with ⟨HxL, HxR⟩
  unfold rowsPts chunkPts O₀
  ihave Hv' := (Entails.of_eq (vPts_eq c fv).symm) $$ Hv
  -- at its barrier wait the device still owes the peer's receive cell, which sits above its barrier cell
  have hmw := mayWait_bar (F := F) c
  sl_exec (disch := simp only [dev1_eq, dev2_eq])
  -- each chunk holds the launched array with that chunk of the half written
  sl_unfold_words
  rw [piece_eq, piece_eq, piece_eq, piece_eq, piece_eq, piece_eq, piece_eq, piece_eq]
  ihave Hout := (join8 (F := F) m c) $$ [HatV_pay1 Hc0 Hc1 Hc2 Hc3 Hc4 Hc5 Hc6 Hc7]
  · isplitl [HatV_pay1]; · iexact HatV_pay1
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  -- the two half-shares are the half again
  ihave Hx := (pointsTo_share (PosShare.mem_left_op_right fullShare)).2 $$ [HxL HatS_pay1]
  · isplitl [HxL] <;> iassumption
  -- the send and receive cells have no later round: closed, their counters at zero are the device's again
  imod (Rounds.cell_close ER (sched m) (Set.mem_univ (K (c, 1))) (fun h => h) (R := 1) (duties_later m (sendCell c))) $$ [HatS] with HzS
  · isplitr; · iexact HIsnd
    iexact HatS
  imod (Rounds.cell_close ER (sched m) (Set.mem_univ (K (c, 2))) (fun h => h) (R := 1) (duties_later m (recvCell c))) $$ [HatV] with HzV
  · isplitr; · iexact HIrcv
    iexact HatV
  rw [wp_ret]; imodintro
  iapply Hk
  unfold bodyPost Φ₁ xPts localSems
  isplitr [HO]
  · isplitl [Hx]; · iexact Hx
    isplitl [Hout]; · iexact Hout
    isplitl [Hv']
    · iexists _
      ihave Hv2 := (Entails.of_eq (vPts_eq c _)) $$ Hv'
      iexact Hv2
    isplitl [Hl0 Hl1 Hl2 Hl3]
    · isplitl [Hl0]; · iexact Hl0
      isplitl [Hl1]; · iexact Hl1
      isplitl [Hl2]; · iexact Hl2
      iexact Hl3
    isplitl [HzS]; · iexact HzS
    iexact HzV
  · iexists _; iexact HO

/-- info: 'Cert.KernelIdeal.Gather.sound_body' depends on axioms: [propext, Classical.choice, Quot.sound] -/
#guard_msgs in #print axioms sound_body

end Cert.KernelIdeal.Gather

end
-- ==== Proof.KernelIdealLaunch.lean ====
/-
  The all-gather along z: the run.

  The launch, handed the body lemma: from any memory with every counter at zero, every weakly fair execution of the
  eight devices' kernels terminates, and every final state has each device's result array gathered and its half
  unchanged.
-/
import proofs.«900670_g7700000000000671_dist_ag_v7x_xyz2x2x2_z_m16384_n1024_f32_1_alg».proof.Proof.KernelIdealLaunchOf
import proofs.«900670_g7700000000000671_dist_ag_v7x_xyz2x2x2_z_m16384_n1024_f32_1_alg».proof.Proof.KernelIdealBody

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem run_main (m : (ℓ : Loc nD τ sig) → Buf (Elt F) ℓ) (ρ : Dev nD → PrngReg) :
    θ_run defs (onTc (τ := τ) (main (F := F))) ⟨m, fun _ => 0, ρ⟩
      (fun r => ∀ c : Dev nD, r.2.mem ((c : Thread nD τ).loc main_v1) = gathered m c
        ∧ r.2.mem ((c : Thread nD τ).loc main_arg0) = m ((c : Thread nD τ).loc main_arg0)) :=
  run_main_of m ρ (fun K c W Kt => sound_body m K c W Kt)

/-- info: 'Cert.KernelIdeal.Gather.run_main' depends on axioms: [propext, Classical.choice, Quot.sound] -/
#guard_msgs in #print axioms run_main

end Cert.KernelIdeal.Gather

end
-- ==== Proof.Reference.lean ====
/- The reference's run: its @main is the empty line of host operations, so every buffer ends as it
   began. From it, the reference's frame and the run at device 0 that the value claim pairs with
   the kernel's. -/
import proofs.«900670_g7700000000000671_dist_ag_v7x_xyz2x2x2_z_m16384_n1024_f32_1_alg».proof.Defs
import proofs.«900670_g7700000000000671_dist_ag_v7x_xyz2x2x2_z_m16384_n1024_f32_1_alg».proof.Proof.Gen.ReferenceIdeal
import proofs.«900670_g7700000000000671_dist_ag_v7x_xyz2x2x2_z_m16384_n1024_f32_1_alg».proof.Proof.Gen.Pre_finite_inputs_ReferenceIdeal
import Idealize.ShloMosaic.Lib.StableHlo.Run

noncomputable section

namespace Cert.Proof.Reference

open Cert.ReferenceIdeal Cert.ReferenceIdeal.Gen Idealize.ShloMosaic Idealize.ShloMosaic.TcCoe Idealize.SL.Sem
  Idealize.ShloMosaic.StableHlo

/-- @main is the empty line: it returns at once. -/
theorem main_eq {F : FTy → Type} [FloatOps F] (c : Dev nD) :
    main (F := F) c = seq ([] : List (HloOp τ sig (Elt F))) := rfl

/-- The signature scopes no TensorCore buffer. -/
theorem scopedRefs_eq : (Finset.univ.filter fun b : Ref sig .tc => b.isScoped) = ∅ := by decide

/-- The signature scopes no semaphore. -/
theorem scopedSems_eq : (Finset.univ.filter fun sm : SemLoc sig => sm.isScoped .tc) = ∅ := by decide

/-- From any memory with zero counters every weakly fair execution of the reference terminates, and
    its one array ends as it began, on every device. -/
theorem run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => h c main_arg0)
    (run_seq scopedRefs_eq scopedSems_eq defs main (fun _ => []) main_eq (fun _ => trivial) m ρ)

/-- The same at device 0 alone, the device the value claim reads the reference's result on. -/
theorem run0 {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      r.2.mem (((0 : Dev nD).tc : Thread nD τ).loc main_arg0) = m (((0 : Dev nD).tc : Thread nD τ).loc main_arg0) :=
  (θ_run defs _ _).mono (fun _ h => h 0) (run m ρ)

/-- The reference's half of the value claim. Its result array IS its argument array, so "the result
    ends at the launch contents of the argument" and "the argument is unchanged" are one equation,
    stated twice as the claim pairs them. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r =>
      r.2.mem (((0 : Dev nD).tc : Thread nD τ).loc main_arg0) = m (((0 : Dev nD).tc : Thread nD τ).loc main_arg0)
      ∧ r.2.mem (((0 : Dev nD).tc : Thread nD τ).loc main_arg0) = m (((0 : Dev nD).tc : Thread nD τ).loc main_arg0) :=
  (θ_run defs _ _).mono (fun _ h => ⟨h, h⟩) (run0 m ρ)

/-- The reference's frame. -/
theorem frame : Cert.frame_ReferenceIdeal := fun m ρ _ => run (F := Ideal) m ρ

/-- info: 'Cert.Proof.Reference.frame' depends on axioms: [propext, Classical.choice, Quot.sound] -/
#guard_msgs in #print axioms frame
/-- info: 'Cert.Proof.Reference.run_value' depends on axioms: [propext, Classical.choice, Quot.sound] -/
#guard_msgs in #print axioms run_value

end Cert.Proof.Reference

end
-- ==== Proof.Whole.lean ====
/-
  The value of the all-gather. Each device's argument is its block of the whole array X: the rows
  [16384 (d % 2), 16384 (d % 2) + 16384), all columns (the array is cut along its rows by the mesh's last
  axis alone). The slice of a result array where device d's half goes is exactly those rows, so a half
  read whole is what that slice reads off X, and writing it there pieces X in on those rows. The two
  halves, the device's own and its peer's, cover every row: the array every device ends holding is X.
  With the reference's run (the identity on X) this is the value claim, given the kernel's run at the
  gathered array.
-/
import proofs.«900670_g7700000000000671_dist_ag_v7x_xyz2x2x2_z_m16384_n1024_f32_1_alg».proof.Defs
import proofs.«900670_g7700000000000671_dist_ag_v7x_xyz2x2x2_z_m16384_n1024_f32_1_alg».proof.Proof.KernelIdealProto
import proofs.«900670_g7700000000000671_dist_ag_v7x_xyz2x2x2_z_m16384_n1024_f32_1_alg».proof.Proof.Reference
import proofs.«900670_g7700000000000671_dist_ag_v7x_xyz2x2x2_z_m16384_n1024_f32_1_alg».proof.Proof.Gen.Pre_finite_inputs_Kernel
import Idealize.ShloMosaic.Lib.Layout
import Idealize.ShloMosaic.Lib.Pipeline.Value

noncomputable section

namespace Cert.KernelIdeal.Gather

open Cert.KernelIdeal Cert.KernelIdeal.Gen
open Idealize.ShloMosaic
open Idealize.ShloMosaic.TcCoe
open Idealize.SL.Sem

/-- Along the rows the whole array is cut by the mesh's last axis alone: device d holds block d % 2. -/
theorem rowBlock (d : Dev nD) : ((Layout.meshBlock [2, 2, 2] ![[2], []] d) 0).val = d.val % 2 := by
  revert d; decide

/-- The columns are not cut. -/
theorem colBlock (d : Dev nD) : ((Layout.meshBlock [2, 2, 2] ![[2], []] d) 1).val = 0 := by
  revert d; decide

/-- Where index y of device d's block sits in the whole array is where the slice of d's rows puts it:
    16384 (d % 2) rows down, the same column. -/
theorem idx_eq (d : Dev nD) (y : S16384x1024.Idx)
    (h : Layout.TilesN ⟨2, ![16384, 1024]⟩ ⟨2, ![32768, 1024]⟩ (fun b => Layout.cutSize [2, 2, 2] ((![[2], []] : Fin 2 → List Nat) b))) :
    h.idx (Layout.meshBlock [2, 2, 2] ![[2], []] d) y = (landM d).view.emb y := by
  refine Shape.idx_ext₂ ?_ ?_
  · show ((Layout.meshBlock [2, 2, 2] ![[2], []] d) 0).val * 16384 + (y 0).val = k0_off1 d 0 + 1 * (y 0).val
    rw [rowBlock, k0_off1_eq]
    show d.val % 2 * 16384 + (y 0).val = 16384 * (d.val % 2) + 1 * (y 0).val
    omega
  · show ((Layout.meshBlock [2, 2, 2] ![[2], []] d) 1).val * 1024 + (y 1).val = k0_off1 d 1 + 1 * (y 1).val
    rw [colBlock, k0_off1_eq]
    show 0 * 1024 + (y 1).val = 0 + 1 * (y 1).val
    omega

/-- Of the two halves of the rows, the one at z and the one at 1 - z, every row is in one. -/
private theorem cover_aux (z r l : ℕ) (hz : z < 2) (hr : r < 32768) (hl : l < 1024) :
    ((16384 * z ≤ r ∧ r < 16384 * z + 16384) ∧ (0 ≤ l ∧ l < 0 + 1024))
      ∨ ((16384 * (1 - z) ≤ r ∧ r < 16384 * (1 - z) + 16384) ∧ (0 ≤ l ∧ l < 0 + 1024)) := by omega

/-- Every row of the whole array is one of device c's rows or one of its peer's. -/
theorem cover (c : Dev nD) (i : S32768x1024.Idx) : i ∈ (landM c).view.set ∨ i ∈ (landM (peer c)).view.set := by
  simp only [Memref.view_slice, Memref.view_whole, View.set_slice_whole, Rect.mem_set_unit, k0_off1_eq, peer_z]
  refine Or.imp Fin.forall_fin_two.mpr Fin.forall_fin_two.mpr ?_
  exact cover_aux (c.val % 2) (i 0).val (i 1).val (Nat.mod_lt _ (by decide)) (i 0).isLt (i 1).isLt

variable {F : FTy → Type} [FloatOps F]

/-- A device's half, read whole, is what the slice of its rows reads off the whole array. -/
theorem half_eq (m : (ℓ : Loc nD τ sig) → Buf (Elt F) ℓ)
    (X : (⟨2, ![32768, 1024]⟩ : Shape).Idx → Elt F .f32)
    (hX : ∀ c : Dev nD, m ((c : Thread nD τ).loc main_arg0)
        = Layout.blockN ⟨2, ![16384, 1024]⟩ ⟨2, ![32768, 1024]⟩ (Layout.meshBlock [2, 2, 2] ![[2], []] c) X)
    (d : Dev nD) :
    (xM : Memref sig .tc .hbm S16384x1024 .f32).view.read (Elt F) (x0 m d) = (landM d).view.read (Elt F) X := by
  funext y
  rw [View.read_apply, View.read_apply, cast_eq, cast_eq]
  show m ((d : Thread nD τ).loc main_arg0) y = X ((landM d).view.emb y)
  rw [hX d, Layout.blockN_apply, idx_eq]

/-- With every device's half its block of the whole array X, every device ends holding X. -/
theorem gathered_eq (m : (ℓ : Loc nD τ sig) → Buf (Elt F) ℓ)
    (X : (⟨2, ![32768, 1024]⟩ : Shape).Idx → Elt F .f32)
    (hX : ∀ c : Dev nD, m ((c : Thread nD τ).loc main_arg0)
        = Layout.blockN ⟨2, ![16384, 1024]⟩ ⟨2, ![32768, 1024]⟩ (Layout.meshBlock [2, 2, 2] ![[2], []] c) X)
    (c : Dev nD) : gathered m c = X := by
  unfold gathered
  rw [half_eq m X hX c, half_eq m X hX (peer c), View.write_read_eq_piecewise, View.write_read_eq_piecewise]
  funext i
  by_cases hp : i ∈ (landM (peer c)).view.setOn Finset.univ
  · rw [Finset.piecewise_eq_of_mem _ _ _ hp]
  · rw [Finset.piecewise_eq_of_notMem _ _ _ hp, Finset.piecewise_eq_of_mem _ _ _
      (show i ∈ (landM c).view.setOn Finset.univ from (cover c i).resolve_right hp)]

/-- The value claim from the kernel's run: if from every launch memory the kernel ends with each device's
    result array gathered and its argument unchanged, then, each device's argument being its block of the
    reference's array, kernel and reference end holding that array. -/
theorem algebraic_of_run
    (hrun : ∀ (m : (ℓ : Loc nD τ sig) → Buf (Elt Ideal) ℓ) (g : Dev nD → PrngReg),
      θ_run (defs (F := Ideal)) (onTc (τ := τ) (main (F := Ideal))) ⟨m, fun _ => 0, g⟩ (fun r => ∀ c : Dev nD,
        r.2.mem ((c : Thread nD τ).loc main_v1) = gathered m c
        ∧ r.2.mem ((c : Thread nD τ).loc main_arg0) = m ((c : Thread nD τ).loc main_arg0))) :
    Cert.algebraic_KernelIdeal_ReferenceIdeal :=
  fun m g m' g' _ hX =>
    ⟨m' (((0 : Dev Cert.ReferenceIdeal.nD).tc : Thread Cert.ReferenceIdeal.nD Cert.ReferenceIdeal.τ).loc Cert.ReferenceIdeal.main_arg0),
      (θ_run _ _ _).mono (fun _ h c => ⟨(h c).1.trans (gathered_eq m _ hX c), (h c).2⟩) (hrun m g),
      Cert.Proof.Reference.run_value m' g'⟩

/-- info: 'Cert.KernelIdeal.Gather.gathered_eq' depends on axioms: [propext, Classical.choice, Quot.sound] -/
#guard_msgs in #print axioms gathered_eq
/-- info: 'Cert.KernelIdeal.Gather.algebraic_of_run' depends on axioms: [propext, Classical.choice, Quot.sound] -/
#guard_msgs in #print axioms algebraic_of_run

end Cert.KernelIdeal.Gather

end
-- ==== Proof.lean ====
/- The claim, assembled.
   The kernel is an all-gather along the mesh's last axis. Each of the 8 devices holds one half of the rows of a
   32768 x 1024 array: device c, at mesh coordinates (c / 4, c / 2 % 2, c % 2), the rows [16384 (c % 2), 16384 (c % 2) + 16384).
   It hands that half to its peer, the device whose last coordinate is the other one, and copies it into its own
   result at the same rows, so that every device ends holding the whole array; the reference is the identity on
   the whole array.
   Each kernel's run names every device's result as the gathered array (the launch contents with the two halves
   written at their rows) and leaves the arguments unchanged, at the word-level instance and at the ideal one
   alike, since the kernel only moves data: its frame is that run with the values dropped. The reference returns at
   once, so its array is unchanged. The idealization rewrote no operation. And when every device's argument is its
   block of the reference's array, the two halves cover every row and the gathered array is that array: the value
   claim. -/
import proofs.«900670_g7700000000000671_dist_ag_v7x_xyz2x2x2_z_m16384_n1024_f32_1_alg».proof.Defs
import proofs.«900670_g7700000000000671_dist_ag_v7x_xyz2x2x2_z_m16384_n1024_f32_1_alg».proof.Proof.Gen.Kernel
import proofs.«900670_g7700000000000671_dist_ag_v7x_xyz2x2x2_z_m16384_n1024_f32_1_alg».proof.Proof.Gen.Kernel.Skeleton
import proofs.«900670_g7700000000000671_dist_ag_v7x_xyz2x2x2_z_m16384_n1024_f32_1_alg».proof.Proof.Gen.Kernel.Launch
import proofs.«900670_g7700000000000671_dist_ag_v7x_xyz2x2x2_z_m16384_n1024_f32_1_alg».proof.Proof.Gen.Kernel.Points
import proofs.«900670_g7700000000000671_dist_ag_v7x_xyz2x2x2_z_m16384_n1024_f32_1_alg».proof.Proof.Gen.Kernel.Frame
import proofs.«900670_g7700000000000671_dist_ag_v7x_xyz2x2x2_z_m16384_n1024_f32_1_alg».proof.Proof.Gen.KernelIdeal
import proofs.«900670_g7700000000000671_dist_ag_v7x_xyz2x2x2_z_m16384_n1024_f32_1_alg».proof.Proof.Gen.KernelIdeal.Skeleton
import proofs.«900670_g7700000000000671_dist_ag_v7x_xyz2x2x2_z_m16384_n1024_f32_1_alg».proof.Proof.Gen.KernelIdeal.Launch
import proofs.«900670_g7700000000000671_dist_ag_v7x_xyz2x2x2_z_m16384_n1024_f32_1_alg».proof.Proof.Gen.KernelIdeal.Points
import proofs.«900670_g7700000000000671_dist_ag_v7x_xyz2x2x2_z_m16384_n1024_f32_1_alg».proof.Proof.Gen.KernelIdeal.Frame
import proofs.«900670_g7700000000000671_dist_ag_v7x_xyz2x2x2_z_m16384_n1024_f32_1_alg».proof.Proof.Gen.ReferenceIdeal
import proofs.«900670_g7700000000000671_dist_ag_v7x_xyz2x2x2_z_m16384_n1024_f32_1_alg».proof.Proof.Gen.Pre_finite_inputs_Kernel
import proofs.«900670_g7700000000000671_dist_ag_v7x_xyz2x2x2_z_m16384_n1024_f32_1_alg».proof.Proof.Gen.Pre_finite_inputs_ReferenceIdeal
import proofs.«900670_g7700000000000671_dist_ag_v7x_xyz2x2x2_z_m16384_n1024_f32_1_alg».proof.Proof.KernelLaunch
import proofs.«900670_g7700000000000671_dist_ag_v7x_xyz2x2x2_z_m16384_n1024_f32_1_alg».proof.Proof.KernelIdealLaunch
import proofs.«900670_g7700000000000671_dist_ag_v7x_xyz2x2x2_z_m16384_n1024_f32_1_alg».proof.Proof.Reference
import proofs.«900670_g7700000000000671_dist_ag_v7x_xyz2x2x2_z_m16384_n1024_f32_1_alg».proof.Proof.Whole
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    -- the word-level kernel's frame: its run, the values dropped
    fun m g _ => (θ_run _ _ _).mono (fun _ h c => (h c).2) (Cert.Kernel.Gather.run_main m g),
    -- the idealized kernel's frame, likewise
    fun m g _ => (θ_run _ _ _).mono (fun _ h c => (h c).2) (Cert.KernelIdeal.Gather.run_main m g),
    -- the reference returns at once
    Cert.Proof.Reference.frame,
    -- the idealization rewrote no operation
    trivial,
    -- every device ends holding the gathered array, which is the whole array
    Cert.KernelIdeal.Gather.algebraic_of_run (fun m g => Cert.KernelIdeal.Gather.run_main m g)⟩

end Cert.Proof

end
